-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024x1024 : Shape := ⟨2, ![1024, 1024]⟩
abbrev S512x128 : Shape := ⟨2, ![512, 128]⟩
abbrev S256x128 : Shape := ⟨2, ![256, 128]⟩
abbrev S256x1 : Shape := ⟨2, ![256, 1]⟩
abbrev S8192x2 : Shape := ⟨2, ![8192, 2]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg4 : FVec F S256x1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  main_v23

def fn {F : FTy → Type} [FloatOps F] (main_arg0 : FVec F S1024x512 .f32) (main_arg1 : FVec F S1024x1024 .f32) (main_arg2 : FVec F S512x128 .f32) (main_arg3 : FVec F S256x128 .f32) (main_arg4 : FVec F S256x1 .f32) (main_arg5 : IVec S8192x2 32) (main_arg6 : IVec S8192x2 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S1024x512 : Shape := ⟨2, ![1024, 512]⟩
abbrev S1024x1024 : Shape := ⟨2, ![1024, 1024]⟩
abbrev S512x128 : Shape := ⟨2, ![512, 128]⟩
abbrev S256x128 : Shape := ⟨2, ![256, 128]⟩
abbrev S256x1 : Shape := ⟨2, ![256, 1]⟩
abbrev S8192x2 : Shape := ⟨2, ![8192, 2]⟩
abbrev S1024x128 : Shape := ⟨2, ![1024, 128]⟩
abbrev S128x1024 : Shape := ⟨2, ![128, 1024]⟩
abbrev S1024x1 : Shape := ⟨2, ![1024, 1]⟩
abbrev S1x1024 : Shape := ⟨2, ![1, 1024]⟩
abbrev S128x128 : Shape := ⟨2, ![128, 128]⟩
abbrev S128x1 : Shape := ⟨2, ![128, 1]⟩
abbrev S1x128 : Shape := ⟨2, ![1, 128]⟩
abbrev S1024 : Shape := ⟨1, ![1024]⟩
abbrev S256x1024 : Shape := ⟨2, ![256, 1024]⟩

abbrev nBuf : Space → Nat
  | .hbm => 12
  | .vmem => 17
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S512x128, .f32⟩
  | .hbm, ⟨3, _⟩ => ⟨S256x128, .f32⟩
  | .hbm, ⟨4, _⟩ => ⟨S256x1, .f32⟩
  | .hbm, ⟨5, _⟩ => ⟨S8192x2, .i32⟩
  | .hbm, ⟨6, _⟩ => ⟨S8192x2, .i32⟩
  | .hbm, ⟨7, _⟩ => ⟨S1024x128, .f32⟩
  | .hbm, ⟨8, _⟩ => ⟨S128x1024, .f32⟩
  | .hbm, ⟨9, _⟩ => ⟨S1024x1, .f32⟩
  | .hbm, ⟨10, _⟩ => ⟨S1x1024, .f32⟩
  | .hbm, ⟨11, _⟩ => ⟨S1024x1024, .f32⟩
  | .local _ .vmem, ⟨0, _⟩ => ⟨S1024x512, .f32⟩
  | .local _ .vmem, ⟨1, _⟩ => ⟨S1024x1024, .f32⟩
  | .local _ .vmem, ⟨2, _⟩ => ⟨S512x128, .f32⟩
  | .local _ .vmem, ⟨3, _⟩ => ⟨S256x128, .f32⟩
  | .local _ .vmem, ⟨4, _⟩ => ⟨S256x1, .f32⟩
  | .local _ .vmem, ⟨5, _⟩ => ⟨S1024x128, .f32⟩
  | .local _ .vmem, ⟨6, _⟩ => ⟨S128x1024, .f32⟩
  | .local _ .vmem, ⟨7, _⟩ => ⟨S1024x1, .f32⟩
  | .local _ .vmem, ⟨8, _⟩ => ⟨S1x1024, .f32⟩
  | .local _ .vmem, ⟨9, _⟩ => ⟨S256x128, .f32⟩
  | .local _ .vmem, ⟨10, _⟩ => ⟨S256x128, .f32⟩
  | .local _ .vmem, ⟨11, _⟩ => ⟨S128x1024, .f32⟩
  | .local _ .vmem, ⟨12, _⟩ => ⟨S256x1, .f32⟩
  | .local _ .vmem, ⟨13, _⟩ => ⟨S256x1, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1024x1024_S1024x1024_0_0 : ∀ a, (![0, 0] : Fin 2 → Nat) a + S1024x1024.size a ≤ S1024x1024.size a
  h_S1024x1024 : 0 < S1024x1024.numel
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  slices_S256x128_o128_0_S128x128 : S256x128.Slices ![128, 0] S128x128
  inb_S256x1_S256x1_0_0 : ∀ a, (![0, 0] : Fin 2 → Nat) a + S256x1.size a ≤ S256x1.size a
  h_S256x1 : 0 < S256x1.numel
  slices_S256x1_o0_0_S128x1 : S256x1.Slices ![0, 0] S128x1
  shapeCasts_S128x1_S1x128 : S128x1.ShapeCasts S1x128
  slices_S256x1_o128_0_S128x1 : S256x1.Slices ![128, 0] S128x1
  broadcasts_S1x128_S1024x128 : S1x128.Broadcasts S1024x128
  reduces_S1024x128_S1024 : S1024x128.Reduces [1] S1024
  shapeCasts_S1024_S1024x1 : S1024.ShapeCasts S1024x1
  transposes_S1024x128_p1_0_S128x1024 : S1024x128.Transposes [1, 0] S128x1024
  inb_S1024x128_S1024x128_0_0 : ∀ a, (![0, 0] : Fin 2 → Nat) a + S1024x128.size a ≤ S1024x128.size a
  h_S1024x128 : 0 < S1024x128.numel
  inb_S128x1024_S128x1024_0_0 : ∀ a, (![0, 0] : Fin 2 → Nat) a + S128x1024.size a ≤ S128x1024.size a
  h_S128x1024 : 0 < S128x1024.numel
  inb_S1024x1_S1024x1_0_0 : ∀ a, (![0, 0] : Fin 2 → Nat) a + S1024x1.size a ≤ S1024x1.size a
  h_S1024x1 : 0 < S1024x1.numel
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S256x128_S256x128 : S256x128.ShapeCasts S256x128
  shapeCasts_S128x1024_S128x1024 : S128x1024.ShapeCasts S128x1024
  shapeCasts_S256x1_S256x1 : S256x1.ShapeCasts S256x1
  shapeCasts_S1x1024_S1x1024 : S1x1024.ShapeCasts S1x1024
  broadcasts_S256x1_S256x1024 : S256x1.Broadcasts S256x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S1024x512_S512x128_S1024x128_1_0_0_1_n_n_wf : DotDims.WF S1024x512 S512x128 S1024x128 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S256x128_S128x1024_S256x1024_1_0_0_1_n_n_wf : DotDims.WF S256x128 S128x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S128x1024.size a
  hwx0_6 : ∀ i : grid0.Coords, EltTy.bits .f32 = 32 ∨ (Rect.block (s := S128x1024) S128x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S1024x1.size a
  hwx0_7 : ∀ i : grid0.Coords, EltTy.bits .f32 = 32 ∨ (Rect.block (s := S1024x1) S1024x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S1024x128.size a
  hwx1_0 : ∀ i : grid1.Coords, EltTy.bits .f32 = 32 ∨ (Rect.block (s := S1024x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x1024.size a
  hwx1_1 : ∀ i : grid1.Coords, EltTy.bits .f32 = 32 ∨ (Rect.block (s := S128x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S1024x1.size a
  hwx1_2 : ∀ i : grid1.Coords, EltTy.bits .f32 = 32 ∨ (Rect.block (s := S1024x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S1024x1024.size a
  hwx1_4 : ∀ i : grid1.Coords, EltTy.bits .f32 = 32 ∨ (Rect.block (s := S1024x1024) S256x1024.size (cc1_transform_4 i) (hinb1_4 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1024x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S128x1024.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1024x1.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_3) S1x1024.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v0_0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S128x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_3) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x512 : Shape := ⟨2, ![1024, 512]⟩
abbrev S1024x1024 : Shape := ⟨2, ![1024, 1024]⟩
abbrev S512x128 : Shape := ⟨2, ![512, 128]⟩
abbrev S256x128 : Shape := ⟨2, ![256, 128]⟩
abbrev S256x1 : Shape := ⟨2, ![256, 1]⟩
abbrev S8192x2 : Shape := ⟨2, ![8192, 2]⟩
abbrev S1024x128 : Shape := ⟨2, ![1024, 128]⟩
abbrev S1024x1x128 : Shape := ⟨3, ![1024, 1, 128]⟩
abbrev S1024x1024x128 : Shape := ⟨3, ![1024, 1024, 128]⟩
abbrev S1x1024x128 : Shape := ⟨3, ![1, 1024, 128]⟩
abbrev S1024x1024x256 : Shape := ⟨3, ![1024, 1024, 256]⟩
abbrev S_ : Shape := ⟨0, ![]⟩
abbrev S1024x1024x1 : Shape := ⟨3, ![1024, 1024, 1]⟩

abbrev nBuf : Space → Nat
  | .hbm => 30
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S512x128, .f32⟩
  | .hbm, ⟨3, _⟩ => ⟨S256x128, .f32⟩
  | .hbm, ⟨4, _⟩ => ⟨S256x1, .f32⟩
  | .hbm, ⟨5, _⟩ => ⟨S8192x2, .i32⟩
  | .hbm, ⟨6, _⟩ => ⟨S8192x2, .i32⟩
  | .hbm, ⟨7, _⟩ => ⟨S1024x128, .f32⟩
  | .hbm, ⟨8, _⟩ => ⟨S1024x128, .f32⟩
  | .hbm, ⟨9, _⟩ => ⟨S1024x1x128, .f32⟩
  | .hbm, ⟨10, _⟩ => ⟨S1024x1024x128, .f32⟩
  | .hbm, ⟨11, _⟩ => ⟨S1x1024x128, .f32⟩
  | .hbm, ⟨12, _⟩ => ⟨S1024x1024x128, .f32⟩
  | .hbm, ⟨13, _⟩ => ⟨S1024x1024x256, .f32⟩
  | .hbm, ⟨14, _⟩ => ⟨S_, .f32⟩
  | .hbm, ⟨15, _⟩ => ⟨S1024x1024x256, .f32⟩
  | .hbm, ⟨16, _⟩ => ⟨S1024x1024x256, .f32⟩
  | .hbm, ⟨17, _⟩ => ⟨S1024x1024x128, .f32⟩
  | .hbm, ⟨18, _⟩ => ⟨S1024x1024x128, .f32⟩
  | .hbm, ⟨19, _⟩ => ⟨S1024x1024x256, .f32⟩
  | .hbm, ⟨20, _⟩ => ⟨S1024x1024x1, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S1024x128_S1024x1x128_0_2 : S1024x128.BroadcastsInDim S1024x1x128 (![0, 2] : Fin 2 → Fin S1024x1x128.rank)
  bcast_S1024x1x128_S1024x1024x128_0_1_2 : S1024x1x128.BroadcastsInDim S1024x1024x128 (![0, 1, 2] : Fin 3 → Fin S1024x1024x128.rank)
  bcast_S1024x128_S1x1024x128_1_2 : S1024x128.BroadcastsInDim S1x1024x128 (![1, 2] : Fin 2 → Fin S1x1024x128.rank)
  bcast_S1x1024x128_S1024x1024x128_0_1_2 : S1x1024x128.BroadcastsInDim S1024x1024x128 (![0, 1, 2] : Fin 3 → Fin S1024x1024x128.rank)
  concatenates_S1024x1024x128_S1024x1024x128_S1024x1024x256_d2 : Shape.Concatenates [S1024x1024x128, S1024x1024x128] S1024x1024x256 2
  bcast_S_S1024x1024x256 : S_.BroadcastsInDim S1024x1024x256 (![] : Fin 0 → Fin S1024x1024x256.rank)
  shapeCasts_S1024x1024x1_S1024x1024 : S1024x1024x1.ShapeCasts S1024x1024
  bcast_S_S1024x1024 : S_.BroadcastsInDim S1024x1024 (![] : Fin 0 → Fin S1024x1024.rank)
  dot_S1024x512_S512x128_S1024x128_1_0_0_1_n_n_wf : DotDims.WF S1024x512 S512x128 S1024x128 [1] [0] [0] [1] [] []
  dot_S1024x1024_S1024x128_S1024x128_1_0_0_1_n_n_wf : DotDims.WF S1024x1024 S1024x128 S1024x128 [1] [0] [0] [1] [] []
  dot_S1024x1024x256_S256x128_S1024x1024x128_2_0_01_1_n_n_wf : DotDims.WF S1024x1024x256 S256x128 S1024x1024x128 [2] [0] [0, 1] [1] [] []
  dot_S1024x1024x256_S256x1_S1024x1024x1_2_0_01_1_n_n_wf : DotDims.WF S1024x1024x256 S256x1 S1024x1024x1 [2] [0] [0, 1] [1] [] []

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024x256_S256x128_S1024x1024x128_2_0_01_1_n_n : DotDims S1024x1024x256 S256x128 S1024x1024x128 where
  lhsContracting := [2]
  rhsContracting := [0]
  lhsNonContracting := [0, 1]
  rhsNonContracting := [1]
  lhsBatch := []
  rhsBatch := []
  wf := dot_S1024x1024x256_S256x128_S1024x1024x128_2_0_01_1_n_n_wf
def dot_S1024x1024x256_S256x1_S1024x1024x1_2_0_01_1_n_n : DotDims S1024x1024x256 S256x1 S1024x1024x1 where
  lhsContracting := [2]
  rhsContracting := [0]
  lhsNonContracting := [0, 1]
  rhsNonContracting := [1]
  lhsBatch := []
  rhsBatch := []
  wf := dot_S1024x1024x256_S256x1_S1024x1024x1_2_0_01_1_n_n_wf

class Facts : Prop extends Facts₀ where

variable [Facts]
-- ==== Proof.Region0.lean ====
/-
  What the encoder region leaves in its four result arrays. Its grid has one point and every window's block is its whole
  array, so each input block is the array as the region finds it, and each result array ends at the body's one stored
  value of those arrays.
-/
import proofs.«126771_j24885040513650_1_alg».proof.Proof.Gen.KernelIdeal.Frame
import Idealize.ShloMosaic.Lib.Pipeline.Value

noncomputable section

namespace Cert.KernelIdeal.Reg0

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The two zero offsets, spelt as the constant function. -/
theorem hz : (![0, 0] : Fin 2 → Nat) = fun _ => 0 :=
  funext fun a => match a with | ⟨0, _⟩ => rfl | ⟨1, _⟩ => rfl

/-! ## Each input block is its whole array -/

/-- Window 0's block index is zero on both axes at the grid's one point. -/
theorem idx0 : ∀ t : Fin cfg0.N, win0_0.index t (0 : Fin 2) = 0 ∧ win0_0.index t (1 : Fin 2) = 0 :=
  (by decide +kernel : ∀ t : Fin grid0.N, _)

/-- Window 0's block is its array as the region finds it. -/
theorem iblk_0 (c : Dev nD) (t : Fin cfg0.N) : (iblk0 V c 0 t : Vec F S1024x512 .f32) = V c main_arg0 := by
  unfold iblk0
  funext y
  show V c main_arg0 (((cfg0.win 0).blk t).view.emb y) = V c main_arg0 y
  congr 1
  funext a; apply Fin.ext
  obtain ⟨e0, e1⟩ := idx0 t
  match a with
  | ⟨0, _⟩ => show win0_0.index t (0 : Fin 2) * 1024 + 1 * (y 0).val = (y 0).val; omega
  | ⟨1, _⟩ => show win0_0.index t (1 : Fin 2) * 512 + 1 * (y 1).val = (y 1).val; omega

/-- Window 1's block index is zero on both axes at the grid's one point. -/
theorem idx1 : ∀ t : Fin cfg0.N, win0_1.index t (0 : Fin 2) = 0 ∧ win0_1.index t (1 : Fin 2) = 0 :=
  (by decide +kernel : ∀ t : Fin grid0.N, _)

/-- Window 1's block is its array as the region finds it. -/
theorem iblk_1 (c : Dev nD) (t : Fin cfg0.N) : (iblk0 V c 1 t : Vec F S1024x1024 .f32) = V c main_arg1 := by
  unfold iblk0
  funext y
  show V c main_arg1 (((cfg0.win 1).blk t).view.emb y) = V c main_arg1 y
  congr 1
  funext a; apply Fin.ext
  obtain ⟨e0, e1⟩ := idx1 t
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- Window 2's block index is zero on both axes at the grid's one point. -/
theorem idx2 : ∀ t : Fin cfg0.N, win0_2.index t (0 : Fin 2) = 0 ∧ win0_2.index t (1 : Fin 2) = 0 :=
  (by decide +kernel : ∀ t : Fin grid0.N, _)

/-- Window 2's block is its array as the region finds it. -/
theorem iblk_2 (c : Dev nD) (t : Fin cfg0.N) : (iblk0 V c 2 t : Vec F S512x128 .f32) = V c main_arg2 := by
  unfold iblk0
  funext y
  show V c main_arg2 (((cfg0.win 2).blk t).view.emb y) = V c main_arg2 y
  congr 1
  funext a; apply Fin.ext
  obtain ⟨e0, e1⟩ := idx2 t
  match a with
  | ⟨0, _⟩ => show win0_2.index t (0 : Fin 2) * 512 + 1 * (y 0).val = (y 0).val; omega
  | ⟨1, _⟩ => show win0_2.index t (1 : Fin 2) * 128 + 1 * (y 1).val = (y 1).val; omega

/-- Window 3's block index is zero on both axes at the grid's one point. -/
theorem idx3 : ∀ t : Fin cfg0.N, win0_3.index t (0 : Fin 2) = 0 ∧ win0_3.index t (1 : Fin 2) = 0 :=
  (by decide +kernel : ∀ t : Fin grid0.N, _)

/-- Window 3's block is its array as the region finds it. -/
theorem iblk_3 (c : Dev nD) (t : Fin cfg0.N) : (iblk0 V c 3 t : Vec F S256x128 .f32) = V c main_arg3 := by
  unfold iblk0
  funext y
  show V c main_arg3 (((cfg0.win 3).blk t).view.emb y) = V c main_arg3 y
  congr 1
  funext a; apply Fin.ext
  obtain ⟨e0, e1⟩ := idx3 t
  match a with
  | ⟨0, _⟩ => show win0_3.index t (0 : Fin 2) * 256 + 1 * (y 0).val = (y 0).val; omega
  | ⟨1, _⟩ => show win0_3.index t (1 : Fin 2) * 128 + 1 * (y 1).val = (y 1).val; omega

/-- Window 4's block index is zero on both axes at the grid's one point. -/
theorem idx4 : ∀ t : Fin cfg0.N, win0_4.index t (0 : Fin 2) = 0 ∧ win0_4.index t (1 : Fin 2) = 0 :=
  (by decide +kernel : ∀ t : Fin grid0.N, _)

/-- Window 4's block is its array as the region finds it. -/
theorem iblk_4 (c : Dev nD) (t : Fin cfg0.N) : (iblk0 V c 4 t : Vec F S256x1 .f32) = V c main_arg4 := by
  unfold iblk0
  funext y
  show V c main_arg4 (((cfg0.win 4).blk t).view.emb y) = V c main_arg4 y
  congr 1
  funext a; apply Fin.ext
  obtain ⟨e0, e1⟩ := idx4 t
  match a with
  | ⟨0, _⟩ => show win0_4.index t (0 : Fin 2) * 256 + 1 * (y 0).val = (y 0).val; omega
  | ⟨1, _⟩ => show win0_4.index t (1 : Fin 2) * 1 + 1 * (y 1).val = (y 1).val; omega

/-! ## Each result block is its whole array, and the one point's write-back covers it -/

/-- Window 5's block index is zero on both axes at the grid's one point. -/
theorem idx5 : ∀ t : Fin cfg0.N, win0_5.index t (0 : Fin 2) = 0 ∧ win0_5.index t (1 : Fin 2) = 0 :=
  (by decide +kernel : ∀ t : Fin grid0.N, _)

/-- Reading window 5's block off a whole-array contents reads the contents. -/
theorem read_blk5 (t : Fin cfg0.N) (G : Vec F S1024x128 .f32) :
    (((cfg0.win 5).blk t).view.read (Elt F) G : Vec F S1024x128 .f32) = G := by
  funext y
  show G (((cfg0.win 5).blk t).view.emb y) = G y
  congr 1
  funext a; apply Fin.ext
  obtain ⟨e0, e1⟩ := idx5 t
  match a with
  | ⟨0, _⟩ => show win0_5.index t (0 : Fin 2) * 1024 + 1 * (y 0).val = (y 0).val; omega
  | ⟨1, _⟩ => show win0_5.index t (1 : Fin 2) * 128 + 1 * (y 1).val = (y 1).val; omega

/-- What the one point writes back through window 5 is the body's stored value of the arrays, read as its block. -/
theorem flushed5_eq (c : Dev nD) (t : Fin cfg0.N) :
    (dat0 V c).flushed 5 t = ((cfg0.win 5).blk t).view.read (Elt F)
      (k0_pay7 (V c main_arg0) (V c main_arg2) (V c main_arg1) (V c main_arg4) : Vec F S1024x128 .f32) := by
  rw [read_blk5]
  show (cfg0.win 5).cut (grid0.coords t) ((dat0 V c).after 5 t) = _
  rw [after0_5]
  unfold out0_5
  rw [View.canon_unit_zero hz]
  simp only [View.ld_unit_zero (S := S1024x512) hz, View.ld_unit_zero (S := S1024x1024) hz,
    View.ld_unit_zero (S := S512x128) hz, View.ld_unit_zero (S := S256x128) hz, View.ld_unit_zero (S := S256x1) hz]
  rw [iblk_0, iblk_1, iblk_2, iblk_4]
  rfl

/-- An index of window 5's array is in a point's block iff each coordinate is in the block's range on its axis. -/
theorem mem_blk5 (t : Fin cfg0.N) (i : S1024x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v0_0).slice (win0_5.rect t)).set ↔ _
  rw [View.set_slice_whole, Rect.mem_set_unit]
  exact Iff.rfl

/-- Every index of window 5's array is in the one point's block. -/
theorem cover5 (i : S1024x128.Idx) :
    ∃ t : Fin cfg0.N, (cfg0.win 5).flush t = true ∧ i ∈ ((cfg0.win 5).blk t).view.set := by
  refine ⟨t0_0, flush0_5 t0_0, ?_⟩
  rw [mem_blk5]
  obtain ⟨e0, e1⟩ := idx5 t0_0
  intro a
  match a with
  | ⟨0, _⟩ =>
    show win0_5.index t0_0 (0 : Fin 2) * 1024 ≤ (i 0).val ∧ (i 0).val < win0_5.index t0_0 (0 : Fin 2) * 1024 + 1024
    have hi : (i 0).val < 1024 := (i 0).isLt
    omega
  | ⟨1, _⟩ =>
    show win0_5.index t0_0 (1 : Fin 2) * 128 ≤ (i 1).val ∧ (i 1).val < win0_5.index t0_0 (1 : Fin 2) * 128 + 128
    have hi : (i 1).val < 128 := (i 1).isLt
    omega

/-- `zw`. -/
theorem arr5 (c : Dev nD) :
    ((dat0 V c).arrAt 5 cfg0.N : Vec F S1024x128 .f32)
      = k0_pay7 (V c main_arg0) (V c main_arg2) (V c main_arg1) (V c main_arg4) :=
  (dat0 V c).arrAt_eq_of_cover 5 _ (fun t _ => flushed5_eq V c t) cover5

/-- Window 6's block index is zero on both axes at the grid's one point. -/
theorem idx6 : ∀ t : Fin cfg0.N, win0_6.index t (0 : Fin 2) = 0 ∧ win0_6.index t (1 : Fin 2) = 0 :=
  (by decide +kernel : ∀ t : Fin grid0.N, _)

/-- Reading window 6's block off a whole-array contents reads the contents. -/
theorem read_blk6 (t : Fin cfg0.N) (G : Vec F S128x1024 .f32) :
    (((cfg0.win 6).blk t).view.read (Elt F) G : Vec F S128x1024 .f32) = G := by
  funext y
  show G (((cfg0.win 6).blk t).view.emb y) = G y
  congr 1
  funext a; apply Fin.ext
  obtain ⟨e0, e1⟩ := idx6 t
  match a with
  | ⟨0, _⟩ => show win0_6.index t (0 : Fin 2) * 128 + 1 * (y 0).val = (y 0).val; omega
  | ⟨1, _⟩ => show win0_6.index t (1 : Fin 2) * 1024 + 1 * (y 1).val = (y 1).val; omega

/-- What the one point writes back through window 6 is the body's stored value of the arrays, read as its block. -/
theorem flushed6_eq (c : Dev nD) (t : Fin cfg0.N) :
    (dat0 V c).flushed 6 t = ((cfg0.win 6).blk t).view.read (Elt F)
      (k0_pay8 (V c main_arg0) (V c main_arg2) (V c main_arg1) : Vec F S128x1024 .f32) := by
  rw [read_blk6]
  show (cfg0.win 6).cut (grid0.coords t) ((dat0 V c).after 6 t) = _
  rw [after0_6]
  unfold out0_6
  rw [View.canon_unit_zero hz]
  simp only [View.ld_unit_zero (S := S1024x512) hz, View.ld_unit_zero (S := S1024x1024) hz,
    View.ld_unit_zero (S := S512x128) hz, View.ld_unit_zero (S := S256x128) hz, View.ld_unit_zero (S := S256x1) hz]
  rw [iblk_0, iblk_1, iblk_2]
  rfl

/-- An index of window 6's array is in a point's block iff each coordinate is in the block's range on its axis. -/
theorem mem_blk6 (t : Fin cfg0.N) (i : S128x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v0_1).slice (win0_6.rect t)).set ↔ _
  rw [View.set_slice_whole, Rect.mem_set_unit]
  exact Iff.rfl

/-- Every index of window 6's array is in the one point's block. -/
theorem cover6 (i : S128x1024.Idx) :
    ∃ t : Fin cfg0.N, (cfg0.win 6).flush t = true ∧ i ∈ ((cfg0.win 6).blk t).view.set := by
  refine ⟨t0_0, flush0_6 t0_0, ?_⟩
  rw [mem_blk6]
  obtain ⟨e0, e1⟩ := idx6 t0_0
  intro a
  match a with
  | ⟨0, _⟩ =>
    show win0_6.index t0_0 (0 : Fin 2) * 128 ≤ (i 0).val ∧ (i 0).val < win0_6.index t0_0 (0 : Fin 2) * 128 + 128
    have hi : (i 0).val < 128 := (i 0).isLt
    omega
  | ⟨1, _⟩ =>
    show win0_6.index t0_0 (1 : Fin 2) * 1024 ≤ (i 1).val ∧ (i 1).val < win0_6.index t0_0 (1 : Fin 2) * 1024 + 1024
    have hi : (i 1).val < 1024 := (i 1).isLt
    omega

/-- `zᵀ`. -/
theorem arr6 (c : Dev nD) :
    ((dat0 V c).arrAt 6 cfg0.N : Vec F S128x1024 .f32)
      = k0_pay8 (V c main_arg0) (V c main_arg2) (V c main_arg1) :=
  (dat0 V c).arrAt_eq_of_cover 6 _ (fun t _ => flushed6_eq V c t) cover6

/-- Window 7's block index is zero on both axes at the grid's one point. -/
theorem idx7 : ∀ t : Fin cfg0.N, win0_7.index t (0 : Fin 2) = 0 ∧ win0_7.index t (1 : Fin 2) = 0 :=
  (by decide +kernel : ∀ t : Fin grid0.N, _)

/-- Reading window 7's block off a whole-array contents reads the contents. -/
theorem read_blk7 (t : Fin cfg0.N) (G : Vec F S1024x1 .f32) :
    (((cfg0.win 7).blk t).view.read (Elt F) G : Vec F S1024x1 .f32) = G := by
  funext y
  show G (((cfg0.win 7).blk t).view.emb y) = G y
  congr 1
  funext a; apply Fin.ext
  obtain ⟨e0, e1⟩ := idx7 t
  match a with
  | ⟨0, _⟩ => show win0_7.index t (0 : Fin 2) * 1024 + 1 * (y 0).val = (y 0).val; omega
  | ⟨1, _⟩ => show win0_7.index t (1 : Fin 2) * 1 + 1 * (y 1).val = (y 1).val; omega

/-- What the one point writes back through window 7 is the body's stored value of the arrays, read as its block. -/
theorem flushed7_eq (c : Dev nD) (t : Fin cfg0.N) :
    (dat0 V c).flushed 7 t = ((cfg0.win 7).blk t).view.read (Elt F)
      (k0_pay5 (V c main_arg0) (V c main_arg2) (V c main_arg1) (V c main_arg3) (V c main_arg4) : Vec F S1024x1 .f32) := by
  rw [read_blk7]
  show (cfg0.win 7).cut (grid0.coords t) ((dat0 V c).after 7 t) = _
  rw [after0_7]
  unfold out0_7
  rw [View.canon_unit_zero hz]
  simp only [View.ld_unit_zero (S := S1024x512) hz, View.ld_unit_zero (S := S1024x1024) hz,
    View.ld_unit_zero (S := S512x128) hz, View.ld_unit_zero (S := S256x128) hz, View.ld_unit_zero (S := S256x1) hz]
  rw [iblk_0, iblk_1, iblk_2, iblk_3, iblk_4]
  rfl

/-- An index of window 7's array is in a point's block iff each coordinate is in the block's range on its axis. -/
theorem mem_blk7 (t : Fin cfg0.N) (i : S1024x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v0_2).slice (win0_7.rect t)).set ↔ _
  rw [View.set_slice_whole, Rect.mem_set_unit]
  exact Iff.rfl

/-- Every index of window 7's array is in the one point's block. -/
theorem cover7 (i : S1024x1.Idx) :
    ∃ t : Fin cfg0.N, (cfg0.win 7).flush t = true ∧ i ∈ ((cfg0.win 7).blk t).view.set := by
  refine ⟨t0_0, flush0_7 t0_0, ?_⟩
  rw [mem_blk7]
  obtain ⟨e0, e1⟩ := idx7 t0_0
  intro a
  match a with
  | ⟨0, _⟩ =>
    show win0_7.index t0_0 (0 : Fin 2) * 1024 ≤ (i 0).val ∧ (i 0).val < win0_7.index t0_0 (0 : Fin 2) * 1024 + 1024
    have hi : (i 0).val < 1024 := (i 0).isLt
    omega
  | ⟨1, _⟩ =>
    show win0_7.index t0_0 (1 : Fin 2) * 1 ≤ (i 1).val ∧ (i 1).val < win0_7.index t0_0 (1 : Fin 2) * 1 + 1
    have hi : (i 1).val < 1 := (i 1).isLt
    omega

/-- Head a, a column. -/
theorem arr7 (c : Dev nD) :
    ((dat0 V c).arrAt 7 cfg0.N : Vec F S1024x1 .f32)
      = k0_pay5 (V c main_arg0) (V c main_arg2) (V c main_arg1) (V c main_arg3) (V c main_arg4) :=
  (dat0 V c).arrAt_eq_of_cover 7 _ (fun t _ => flushed7_eq V c t) cover7

/-- Window 8's block index is zero on both axes at the grid's one point. -/
theorem idx8 : ∀ t : Fin cfg0.N, win0_8.index t (0 : Fin 2) = 0 ∧ win0_8.index t (1 : Fin 2) = 0 :=
  (by decide +kernel : ∀ t : Fin grid0.N, _)

/-- Reading window 8's block off a whole-array contents reads the contents. -/
theorem read_blk8 (t : Fin cfg0.N) (G : Vec F S1x1024 .f32) :
    (((cfg0.win 8).blk t).view.read (Elt F) G : Vec F S1x1024 .f32) = G := by
  funext y
  show G (((cfg0.win 8).blk t).view.emb y) = G y
  congr 1
  funext a; apply Fin.ext
  obtain ⟨e0, e1⟩ := idx8 t
  match a with
  | ⟨0, _⟩ => show win0_8.index t (0 : Fin 2) * 1 + 1 * (y 0).val = (y 0).val; omega
  | ⟨1, _⟩ => show win0_8.index t (1 : Fin 2) * 1024 + 1 * (y 1).val = (y 1).val; omega

/-- What the one point writes back through window 8 is the body's stored value of the arrays, read as its block. -/
theorem flushed8_eq (c : Dev nD) (t : Fin cfg0.N) :
    (dat0 V c).flushed 8 t = ((cfg0.win 8).blk t).view.read (Elt F)
      (k0_pay1 (k0_pay6 (V c main_arg0) (V c main_arg2) (V c main_arg1) (V c main_arg3) (V c main_arg4)) : Vec F S1x1024 .f32) := by
  rw [read_blk8]
  show (cfg0.win 8).cut (grid0.coords t) ((dat0 V c).after 8 t) = _
  rw [after0_8]
  unfold out0_8
  rw [View.canon_unit_zero hz]
  simp only [View.ld_unit_zero (S := S1024x512) hz, View.ld_unit_zero (S := S1024x1024) hz,
    View.ld_unit_zero (S := S512x128) hz, View.ld_unit_zero (S := S256x128) hz, View.ld_unit_zero (S := S256x1) hz]
  rw [iblk_0, iblk_1, iblk_2, iblk_3, iblk_4]
  rfl

/-- An index of window 8's array is in a point's block iff each coordinate is in the block's range on its axis. -/
theorem mem_blk8 (t : Fin cfg0.N) (i : S1x1024.Idx) :
    i ∈ ((cfg0.win 8).blk t).view.set ↔ ∀ a : Fin 2, win0_8.index t a * S1x1024.size a ≤ (i a).val ∧ (i a).val < win0_8.index t a * S1x1024.size a + S1x1024.size a := by
  show i ∈ ((View.whole main_v0_3).slice (win0_8.rect t)).set ↔ _
  rw [View.set_slice_whole, Rect.mem_set_unit]
  exact Iff.rfl

/-- Every index of window 8's array is in the one point's block. -/
theorem cover8 (i : S1x1024.Idx) :
    ∃ t : Fin cfg0.N, (cfg0.win 8).flush t = true ∧ i ∈ ((cfg0.win 8).blk t).view.set := by
  refine ⟨t0_0, flush0_8 t0_0, ?_⟩
  rw [mem_blk8]
  obtain ⟨e0, e1⟩ := idx8 t0_0
  intro a
  match a with
  | ⟨0, _⟩ =>
    show win0_8.index t0_0 (0 : Fin 2) * 1 ≤ (i 0).val ∧ (i 0).val < win0_8.index t0_0 (0 : Fin 2) * 1 + 1
    have hi : (i 0).val < 1 := (i 0).isLt
    omega
  | ⟨1, _⟩ =>
    show win0_8.index t0_0 (1 : Fin 2) * 1024 ≤ (i 1).val ∧ (i 1).val < win0_8.index t0_0 (1 : Fin 2) * 1024 + 1024
    have hi : (i 1).val < 1024 := (i 1).isLt
    omega

/-- Head b, a row. -/
theorem arr8 (c : Dev nD) :
    ((dat0 V c).arrAt 8 cfg0.N : Vec F S1x1024 .f32)
      = k0_pay1 (k0_pay6 (V c main_arg0) (V c main_arg2) (V c main_arg1) (V c main_arg3) (V c main_arg4)) :=
  (dat0 V c).arrAt_eq_of_cover 8 _ (fun t _ => flushed8_eq V c t) cover8

end Cert.KernelIdeal.Reg0

end
-- ==== Proof.PayDec.lean ====
/-
  The decoder kernel's body read at an index, on the extended reals: a [256, 128] tile of `zw` times `zᵀ` [128, 1024]
  into a zero accumulator is a sum over the 128 contracted coordinates; the column of head a is broadcast along the row,
  the row of head b down the column; the logistic function is applied entry by entry.
-/
import proofs.«126771_j24885040513650_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx Idealize.SL.Sem

/-- A `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate is the output's. -/
private theorem lhs_dec_0 (i : S256x1024.Idx) (q : dot_S256x128_S128x1024_S256x1024_1_0_0_1_n_n.contr.Idx) :
    (dot_S256x128_S128x1024_S256x1024_1_0_0_1_n_n.lhsIdx i q 0).val = (i 0).val := by
  unfold DotDims.lhsIdx
  rw [dif_neg (show ¬(0 : Fin S256x128.rank) ∈ dot_S256x128_S128x1024_S256x1024_1_0_0_1_n_n.lhsBatch by decide), dif_pos (show (0 : Fin S256x128.rank) ∈ dot_S256x128_S128x1024_S256x1024_1_0_0_1_n_n.lhsNonContracting by decide)]
  rfl
/-- The left operand's column coordinate is the contracted one. -/
private theorem lhs_dec_1 (i : S256x1024.Idx) (q : dot_S256x128_S128x1024_S256x1024_1_0_0_1_n_n.contr.Idx) :
    (dot_S256x128_S128x1024_S256x1024_1_0_0_1_n_n.lhsIdx i q 1).val = (q ⟨0, by decide⟩).val :=
  dot_S256x128_S128x1024_S256x1024_1_0_0_1_n_n.lhsIdx_val_of_single rfl i q
/-- The right operand's row coordinate is the contracted one. -/
private theorem rhs_dec_0 (i : S256x1024.Idx) (q : dot_S256x128_S128x1024_S256x1024_1_0_0_1_n_n.contr.Idx) :
    (dot_S256x128_S128x1024_S256x1024_1_0_0_1_n_n.rhsIdx i q 0).val = (q ⟨0, by decide⟩).val :=
  dot_S256x128_S128x1024_S256x1024_1_0_0_1_n_n.rhsIdx_val_of_single rfl i q
/-- The right operand's column coordinate is the output's. -/
private theorem rhs_dec_1 (i : S256x1024.Idx) (q : dot_S256x128_S128x1024_S256x1024_1_0_0_1_n_n.contr.Idx) :
    (dot_S256x128_S128x1024_S256x1024_1_0_0_1_n_n.rhsIdx i q 1).val = (i 1).val := by
  unfold DotDims.rhsIdx
  rw [dif_neg (show ¬(1 : Fin S128x1024.rank) ∈ dot_S256x128_S128x1024_S256x1024_1_0_0_1_n_n.rhsBatch by decide), dif_pos (show (1 : Fin S128x1024.rank) ∈ dot_S256x128_S128x1024_S256x1024_1_0_0_1_n_n.rhsNonContracting by decide)]
  rfl

/-- The product into the zero accumulator at (r, j): the sum over the 128 contracted coordinates. -/
private theorem dec_matmul_apply {φ₁ φ₂ : FTy} (a : FVec Ideal S256x128 φ₁) (b : FVec Ideal S128x1024 φ₂) (r : Fin 256) (j : Fin 1024) :
    matmul dot_S256x128_S128x1024_S256x1024_1_0_0_1_n_n none a b (constant S256x1024 .f32 0x00000000#32) (ix2 r j)
      = ∑ k : Fin 128, a (ix2 r k) * b (ix2 k j) := by
  refine (Ideal.matmul_constant_zero_apply dot_S256x128_S128x1024_S256x1024_1_0_0_1_n_n none a b (ix2 r j)).trans ?_
  rw [← Equiv.sum_comp (ValueIdx.contrEquiv1 dot_S256x128_S128x1024_S256x1024_1_0_0_1_n_n 128 rfl rfl).symm]
  refine Finset.sum_congr rfl fun k _ => ?_
  have hk := ValueIdx.contrEquiv1_symm_val dot_S256x128_S128x1024_S256x1024_1_0_0_1_n_n 128 rfl rfl k
  have el : dot_S256x128_S128x1024_S256x1024_1_0_0_1_n_n.lhsIdx (ix2 r j) ((ValueIdx.contrEquiv1 dot_S256x128_S128x1024_S256x1024_1_0_0_1_n_n 128 rfl rfl).symm k) = ix2 r k := funext fun a => Fin.ext (by
    match a with
    | ⟨0, _⟩ => exact lhs_dec_0 _ _
    | ⟨1, _⟩ => exact (lhs_dec_1 _ _).trans hk)
  have er : dot_S256x128_S128x1024_S256x1024_1_0_0_1_n_n.rhsIdx (ix2 r j) ((ValueIdx.contrEquiv1 dot_S256x128_S128x1024_S256x1024_1_0_0_1_n_n 128 rfl rfl).symm k) = ix2 k j := funext fun a => Fin.ext (by
    match a with
    | ⟨0, _⟩ => exact (rhs_dec_0 _ _).trans hk
    | ⟨1, _⟩ => exact rhs_dec_1 _ _)
  rw [el, er]

/-- The decoder tile at (r, j). -/
theorem payDec_apply (v0 : Vec Ideal S256x128 .f32) (v3 : Vec Ideal S128x1024 .f32) (v7 : Vec Ideal S256x1 .f32)
    (v9 : Vec Ideal S1x1024 .f32) (r : Fin 256) (j : Fin 1024) :
    k1_pay1 (F := Ideal) v0 v3 v7 v9 (ix2 r j)
      = Ideal.logistic ((∑ k : Fin 128, v0 (ix2 r k) * v3 (ix2 k j) + v7 (ix2 r (0 : Fin 1))) + v9 (ix2 (0 : Fin 1) j)) := by
  unfold k1_pay1
  rw [shapeCast_self, shapeCast_self, shapeCast_self, shapeCast_self]
  show Ideal.logistic ((matmul (F := Ideal) dot_S256x128_S128x1024_S256x1024_1_0_0_1_n_n none (truncf FTy.bf16 v0 bitsLt_bf16_f32)
            (truncf FTy.bf16 v3 bitsLt_bf16_f32) (constant S256x1024 FTy.f32 0x00000000#32) (ix2 r j)
          + broadcastTo S256x1024 v7 broadcasts_S256x1_S256x1024 (ix2 r j))
        + broadcastTo S256x1024 v9 broadcasts_S1x1024_S256x1024 (ix2 r j)) = _
  rw [dec_matmul_apply, broadcastTo_a1_ab_apply, broadcastTo_1b_ab_apply]
  rfl

end Cert.KernelIdeal.Pay

end
-- ==== Proof.Region1.lean ====
/-
  What the decoder region leaves in the result array, on the extended reals. The grid's four points each write one block
  of 256 whole rows; point `t` reads rows `256 t …` of `zw` and of head a, and all of `zᵀ` and of head b. The blocks tile the
  array, so entry (i, j) is the body's value at the point `i / 256`, local row `i % 256`.
-/
import proofs.«126771_j24885040513650_1_alg».proof.Proof.Gen.KernelIdeal.Frame
import proofs.«126771_j24885040513650_1_alg».proof.Proof.PayDec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The four arrays the region reads, as the region finds them, each at its literal type. -/
abbrev arrZw (c : Dev nD) : Vec Ideal S1024x128 .f32 := V c main_v0_0
abbrev arrZt (c : Dev nD) : Vec Ideal S128x1024 .f32 := V c main_v0_1
abbrev arrA (c : Dev nD) : Vec Ideal S1024x1 .f32 := V c main_v0_2
abbrev arrB (c : Dev nD) : Vec Ideal S1x1024 .f32 := V c main_v0_3
/-- The result array after the region, at its literal type. -/
abbrev arrOut (c : Dev nD) : Vec Ideal S1024x1024 .f32 := (dat1 (F := Ideal) V c).arrAt 4 cfg1.N

/-- The zero offsets of a whole-buffer access, however spelt. -/
theorem hz : (![0, 0] : Fin 2 → Nat) = fun _ => 0 := funext fun a => by fin_cases a <;> rfl

/-- The grid has four points. -/
theorem lt4 (t : Fin cfg1.N) : t.val < 4 := lt_of_lt_of_eq t.isLt N_1

/-- Row `r` of point `t`'s block of 256 rows is row `256 t + r` of the array. -/
def row (t : Fin cfg1.N) (r : Fin 256) : Fin 1024 := ⟨256 * t.val + r.val, by have := lt4 t; have := r.isLt; omega⟩

/-- What the result array ends holding: the body's value index by index, of the four arrays the region reads. -/
abbrev G (c : Dev nD) : Vec Ideal S1024x1024 .f32 := fun y =>
  Ideal.logistic ((∑ k : Fin 128, arrZw V c (ix2 (y 0 : Fin 1024) k) * arrZt V c (ix2 k (y 1 : Fin 1024))
      + arrA V c (ix2 (y 0 : Fin 1024) (0 : Fin 1))) + arrB V c (ix2 (0 : Fin 1) (y 1 : Fin 1024)))

/-- The index maps, decided over the grid: the row blocks of `zw`, of head a and of the result move with the point; `zᵀ`
    and head b stay at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Point `t`'s block of `zw` is its rows `256 t …`. -/
theorem blk0_apply (c : Dev nD) (t : Fin cfg1.N) (r : Fin 256) (k : Fin 128) :
    (iblk1 (F := Ideal) V c 0 t : Vec Ideal S256x128 .f32) (ix2 r k) = arrZw V c (ix2 (row t r) k) := by
  obtain ⟨e0, e1, -⟩ := idx_facts t
  unfold iblk1
  rw [View.read_apply]
  show V c main_v0_0 _ = V c main_v0_0 _
  congr 1
  funext a
  apply Fin.ext
  match a with
  | ⟨0, _⟩ => show win1_0.index t (0 : Fin 2) * 256 + 1 * r.val = 256 * t.val + r.val; rw [e0]; omega
  | ⟨1, _⟩ => show win1_0.index t (1 : Fin 2) * 128 + 1 * k.val = k.val; rw [e1]; omega

/-- Every point's block of `zᵀ` is all of it. -/
theorem blk1_apply (c : Dev nD) (t : Fin cfg1.N) (k : Fin 128) (j : Fin 1024) :
    (iblk1 (F := Ideal) V c 1 t : Vec Ideal S128x1024 .f32) (ix2 k j) = arrZt V c (ix2 k j) := by
  obtain ⟨-, -, e0, e1, -⟩ := idx_facts t
  unfold iblk1
  rw [View.read_apply]
  show V c main_v0_1 _ = V c main_v0_1 _
  congr 1
  funext a
  apply Fin.ext
  match a with
  | ⟨0, _⟩ => show win1_1.index t (0 : Fin 2) * 128 + 1 * k.val = k.val; rw [e0]; omega
  | ⟨1, _⟩ => show win1_1.index t (1 : Fin 2) * 1024 + 1 * j.val = j.val; rw [e1]; omega

/-- Point `t`'s block of head a is its rows `256 t …`. -/
theorem blk2_apply (c : Dev nD) (t : Fin cfg1.N) (r : Fin 256) (z : Fin 1) :
    (iblk1 (F := Ideal) V c 2 t : Vec Ideal S256x1 .f32) (ix2 r z) = arrA V c (ix2 (row t r) z) := by
  obtain ⟨-, -, -, -, e0, e1, -⟩ := idx_facts t
  unfold iblk1
  rw [View.read_apply]
  show V c main_v0_2 _ = V c main_v0_2 _
  congr 1
  funext a
  apply Fin.ext
  match a with
  | ⟨0, _⟩ => show win1_2.index t (0 : Fin 2) * 256 + 1 * r.val = 256 * t.val + r.val; rw [e0]; omega
  | ⟨1, _⟩ => show win1_2.index t (1 : Fin 2) * 1 + 1 * z.val = z.val; rw [e1]; omega

/-- Every point's block of head b is all of it. -/
theorem blk3_apply (c : Dev nD) (t : Fin cfg1.N) (z : Fin 1) (j : Fin 1024) :
    (iblk1 (F := Ideal) V c 3 t : Vec Ideal S1x1024 .f32) (ix2 z j) = arrB V c (ix2 z j) := by
  obtain ⟨-, -, -, -, -, -, e0, e1, -⟩ := idx_facts t
  unfold iblk1
  rw [View.read_apply]
  show V c main_v0_3 _ = V c main_v0_3 _
  congr 1
  funext a
  apply Fin.ext
  match a with
  | ⟨0, _⟩ => show win1_3.index t (0 : Fin 2) * 1 + 1 * z.val = z.val; rw [e0]; omega
  | ⟨1, _⟩ => show win1_3.index t (1 : Fin 2) * 1024 + 1 * j.val = j.val; rw [e1]; omega

/-- Where entry (r, j) of point `t`'s block of the result sits in the array. -/
theorem emb4 (t : Fin cfg1.N) (r : Fin 256) (j : Fin 1024) :
    (((cfg1.win 4).blk t).view.emb (ix2 r j) : S1024x1024.Idx) = ix2 (row t r) j := by
  obtain ⟨-, -, -, -, -, -, -, -, e0, e1⟩ := idx_facts t
  funext a
  apply Fin.ext
  match a with
  | ⟨0, _⟩ => show win1_4.index t (0 : Fin 2) * 256 + 1 * r.val = 256 * t.val + r.val; rw [e0]; omega
  | ⟨1, _⟩ => show win1_4.index t (1 : Fin 2) * 1024 + 1 * j.val = j.val; rw [e1]; omega

/-- What point `t` writes back is block `t` of `G`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz]
  rw [View.ld_unit_zero (S := S256x128) hz, View.ld_unit_zero (S := S128x1024) hz, View.ld_unit_zero (S := S256x1) hz,
    View.ld_unit_zero (S := S1x1024) hz]
  funext y
  obtain ⟨r, j, rfl⟩ : ∃ (r : Fin 256) (j : Fin 1024), y = ix2 r j := ⟨y 0, y 1, eq_ix2 y⟩
  rw [View.read_apply]
  refine (Pay.payDec_apply _ _ _ _ r j).trans ?_
  show _ = G V c (((cfg1.win 4).blk t).view.emb (ix2 r j))
  rw [emb4]
  show _ = Ideal.logistic ((∑ k : Fin 128, arrZw V c (ix2 (row t r) k) * arrZt V c (ix2 k j)
      + arrA V c (ix2 (row t r) (0 : Fin 1))) + arrB V c (ix2 (0 : Fin 1) j))
  simp only [blk0_apply, blk1_apply, blk2_apply, blk3_apply]

/-- An index of the array is in point `t`'s block iff each coordinate is in the block's range on its axis. -/
theorem mem_blk (t : Fin cfg1.N) (i : S1024x1024.Idx) :
    i ∈ ((cfg1.win 4).blk t).view.set ↔ ∀ a : Fin 2, win1_4.index t a * S256x1024.size a ≤ (i a).val
      ∧ (i a).val < win1_4.index t a * S256x1024.size a + S256x1024.size a := by
  show i ∈ ((View.whole main_v1).slice (win1_4.rect t)).set ↔ _
  rw [View.set_slice_whole, Rect.mem_set_unit]
  exact Iff.rfl

/-- The four blocks of 256 whole rows tile the array: row `i` lies in the block of point `i / 256`. -/
theorem cover (i : S1024x1024.Idx) :
    ∃ t : Fin cfg1.N, (cfg1.win 4).flush t = true ∧ i ∈ ((cfg1.win 4).blk t).view.set := by
  have hi0 : (i 0).val < 1024 := (i 0).isLt
  have hi1 : (i 1).val < 1024 := (i 1).isLt
  have hN : cfg1.N = 4 := N_1
  obtain ⟨t, ht⟩ : ∃ t : Fin cfg1.N, t.val = (i 0).val / 256 := ⟨⟨(i 0).val / 256, by rw [hN]; omega⟩, rfl⟩
  obtain ⟨-, -, -, -, -, -, -, -, e0, e1⟩ := idx_facts t
  refine ⟨t, flush1_4 t, ?_⟩
  rw [mem_blk]
  intro a
  match a with
  | ⟨0, _⟩ =>
    show win1_4.index t (0 : Fin 2) * 256 ≤ (i 0).val ∧ (i 0).val < win1_4.index t (0 : Fin 2) * 256 + 256
    rw [e0, ht]; omega
  | ⟨1, _⟩ =>
    show win1_4.index t (1 : Fin 2) * 1024 ≤ (i 1).val ∧ (i 1).val < win1_4.index t (1 : Fin 2) * 1024 + 1024
    rw [e1]; omega

/-- The result array after the region is `G`. -/
theorem out_eq (c : Dev nD) : arrOut V c = G V c :=
  (dat1 (F := Ideal) V c).arrAt_eq_of_cover 4 (G V c) (fun t _ => flushed_eq V c t) cover

/-- The result array at (i, j), from the four arrays the region reads. -/
theorem out_apply (c : Dev nD) (i j : Fin 1024) :
    arrOut V c (ix2 i j)
      = Ideal.logistic ((∑ k : Fin 128, arrZw V c (ix2 i k) * arrZt V c (ix2 k j) + arrA V c (ix2 i (0 : Fin 1)))
          + arrB V c (ix2 (0 : Fin 1) j)) := by
  rw [out_eq]

end Cert.KernelIdeal.Reg1

end
-- ==== Proof.Spec.lean ====
/-
  The mathematics of the pair scorer, free of any program text.

  From node features `X` [1024, 512], a dense adjacency `A` [1024, 1024] and a projection `W` [512, 128] the encoder forms
  `z = A · (X · W)` [1024, 128]. For a pair of nodes (i, j) the decoder concatenates `z i` and `z j` (256 numbers), clamps
  below at 0, multiplies by `W2` [256, 128] (128 hidden numbers), appends the 128 products `z i k · z j k`, and takes the inner
  product with `w3` (256 numbers). Because the clamp acts coordinate by coordinate and the concatenation only stacks
  coordinates, that inner product splits into a part that depends on `i` alone, a part that depends on `j` alone, and one
  bilinear term: `score i j = (∑ k, (z i k · w3 (128 + k)) · z j k + a i) + b j`. The split distributes a factor over a sum,
  which on the extended reals needs every number finite; `score_eq` states it for finite data.
-/
import Idealize.ShloMosaic.PureOps.Ideal
import Idealize.ShloMosaic.Lib.ValueIdx
import Mathlib.Algebra.BigOperators.Fin
import Mathlib.Data.EReal.Basic
import Mathlib.Tactic.Ring

noncomputable section

namespace Cert.PairScore

open Idealize.ShloMosaic Idealize.ShloMosaic.ValueIdx

/-- Coordinate `k` of the first half of a 256-long axis. -/
abbrev lo (k : Fin 128) : Fin 256 := ⟨k.val, by have := k.isLt; omega⟩
/-- Coordinate `128 + k`, in the second half. -/
abbrev hi (k : Fin 128) : Fin 256 := ⟨128 + k.val, by have := k.isLt; omega⟩

/-- A rank-2 array as a function of its two coordinates. -/
abbrev cur2 {n0 n1 : Nat} (v : (⟨2, ![n0, n1]⟩ : Shape).Idx → EReal) : Fin n0 → Fin n1 → EReal := fun a b => v (ix2 a b)
/-- A one-column array as a function of its row. -/
abbrev col0 {n : Nat} (v : (⟨2, ![n, 1]⟩ : Shape).Idx → EReal) : Fin n → EReal := fun a => v (ix2 a (0 : Fin 1))

section
variable (X : Fin 1024 → Fin 512 → EReal) (A : Fin 1024 → Fin 1024 → EReal) (W : Fin 512 → Fin 128 → EReal)
variable (W2 : Fin 256 → Fin 128 → EReal) (w3 : Fin 256 → EReal) (z : Fin 1024 → Fin 128 → EReal)

/-- The projected features `X · W`. -/
def feat (i : Fin 1024) (d : Fin 128) : EReal := ∑ q : Fin 512, X i q * W q d
/-- The encoder's output `z = A · (X · W)`. -/
def enc (i : Fin 1024) (d : Fin 128) : EReal := ∑ k : Fin 1024, A i k * feat X W k d

/-- The part of the score that depends on the first node only: `relu (z i)` through the first 128 rows of `W2`, against the
    first half of `w3`. -/
def headA (i : Fin 1024) : EReal := ∑ l : Fin 128, (∑ k : Fin 128, max (z i k) 0 * W2 (lo k) l) * w3 (lo l)
/-- The part that depends on the second node only: `relu (z j)` through the last 128 rows of `W2`, against the
    first half of `w3`. -/
def headB (j : Fin 1024) : EReal := ∑ l : Fin 128, (∑ k : Fin 128, max (z j k) 0 * W2 (hi k) l) * w3 (lo l)
/-- The score as the kernel forms it. -/
def kerScore (i j : Fin 1024) : EReal := (∑ k : Fin 128, (z i k * w3 (hi k)) * z j k + headA W2 w3 z i) + headB W2 w3 z j

/-- The concatenation `[z i ; z j]`. -/
def pairFeat (i j : Fin 1024) (q : Fin 256) : EReal :=
  if h : q.val < 128 then z i ⟨q.val, h⟩ else z j ⟨q.val - 128, by have := q.isLt; omega⟩
/-- The 256 numbers the last inner product sees: the hidden layer, then the coordinatewise products. -/
def pairHidden (i j : Fin 1024) (k : Fin 256) : EReal :=
  if h : k.val < 128 then ∑ q : Fin 256, max (pairFeat z i j q) 0 * W2 q ⟨k.val, h⟩
  else z i ⟨k.val - 128, by have := k.isLt; omega⟩ * z j ⟨k.val - 128, by have := k.isLt; omega⟩
/-- The score as the reference forms it. -/
def refScore (i j : Fin 1024) : EReal := ∑ k : Fin 256, pairHidden W2 z i j k * w3 k
end

/-- The inclusion of the reals in the extended reals commutes with finite sums. -/
theorem coe_sum {ι : Type} (s : Finset ι) (f : ι → ℝ) :
    ((∑ a ∈ s, f a : ℝ) : EReal) = ∑ a ∈ s, ((f a : ℝ) : EReal) := by
  classical
  induction s using Finset.induction_on with
  | empty => simp
  | insert a s ha ih => rw [Finset.sum_insert ha, Finset.sum_insert ha, EReal.coe_add, ih]

/-- The inclusion of the reals in the extended reals commutes with `max`. -/
theorem coe_max (x y : ℝ) : ((max x y : ℝ) : EReal) = max (x : EReal) (y : EReal) :=
  EReal.coe_strictMono.monotone.map_max

/-- A sum over 256 coordinates is the sum over the first half plus the sum over the second half. -/
theorem sum256 {M : Type} [AddCommMonoid M] (f : Fin 256 → M) :
    ∑ k : Fin 256, f k = ∑ k : Fin 128, f (lo k) + ∑ k : Fin 128, f (hi k) :=
  Fin.sum_univ_add (a := 128) (b := 128) f

section
variable (z : Fin 1024 → Fin 128 → EReal) (W2 : Fin 256 → Fin 128 → EReal) (i j : Fin 1024)

theorem pairFeat_lo (k : Fin 128) : pairFeat z i j (lo k) = z i k := by
  unfold pairFeat
  rw [dif_pos (show (lo k).val < 128 from k.isLt)]

theorem pairFeat_hi (k : Fin 128) : pairFeat z i j (hi k) = z j k := by
  unfold pairFeat
  rw [dif_neg (show ¬ (hi k).val < 128 from by simp [hi])]
  congr 1
  apply Fin.ext
  simp [hi]

theorem pairHidden_lo (l : Fin 128) :
    pairHidden W2 z i j (lo l)
      = ∑ k : Fin 128, max (z i k) 0 * W2 (lo k) l + ∑ k : Fin 128, max (z j k) 0 * W2 (hi k) l := by
  unfold pairHidden
  rw [dif_pos (show (lo l).val < 128 from l.isLt), sum256]
  simp only [pairFeat_lo, pairFeat_hi]

theorem pairHidden_hi (k : Fin 128) : pairHidden W2 z i j (hi k) = z i k * z j k := by
  unfold pairHidden
  rw [dif_neg (show ¬ (hi k).val < 128 from by simp [hi])]
  have h : (⟨(hi k).val - 128, by have := (hi k).isLt; omega⟩ : Fin 128) = k := by
    apply Fin.ext
    simp [hi]
  rw [h]
end

/-- The identity for a finite encoder output. -/
theorem score_eq_of_real (W2 : Fin 256 → Fin 128 → ℝ) (w3 : Fin 256 → ℝ) (z : Fin 1024 → Fin 128 → ℝ)
    (i j : Fin 1024) :
    refScore (fun a b => ((W2 a b : ℝ) : EReal)) (fun a => ((w3 a : ℝ) : EReal))
        (fun a b => ((z a b : ℝ) : EReal)) i j
      = kerScore (fun a b => ((W2 a b : ℝ) : EReal)) (fun a => ((w3 a : ℝ) : EReal))
        (fun a b => ((z a b : ℝ) : EReal)) i j := by
  unfold refScore kerScore headA headB
  rw [sum256]
  simp only [pairHidden_lo, pairHidden_hi]
  simp only [← EReal.coe_zero, ← coe_max, ← EReal.coe_mul, ← coe_sum, ← EReal.coe_add]
  rw [EReal.coe_eq_coe_iff]
  simp only [add_mul, Finset.sum_add_distrib]
  have hb : ∀ k : Fin 128, z i k * z j k * w3 (hi k) = z i k * w3 (hi k) * z j k := fun k => by ring
  simp only [hb]
  ring

/-- On finite data the two scores agree. -/
theorem score_eq (X : Fin 1024 → Fin 512 → ℝ) (A : Fin 1024 → Fin 1024 → ℝ) (W : Fin 512 → Fin 128 → ℝ)
    (W2 : Fin 256 → Fin 128 → ℝ) (w3 : Fin 256 → ℝ) (i j : Fin 1024) :
    refScore (fun a b => ((W2 a b : ℝ) : EReal)) (fun a => ((w3 a : ℝ) : EReal))
        (enc (fun a b => ((X a b : ℝ) : EReal)) (fun a b => ((A a b : ℝ) : EReal)) (fun a b => ((W a b : ℝ) : EReal))) i j
      = kerScore (fun a b => ((W2 a b : ℝ) : EReal)) (fun a => ((w3 a : ℝ) : EReal))
        (enc (fun a b => ((X a b : ℝ) : EReal)) (fun a b => ((A a b : ℝ) : EReal)) (fun a b => ((W a b : ℝ) : EReal))) i j := by
  have hz : enc (fun a b => ((X a b : ℝ) : EReal)) (fun a b => ((A a b : ℝ) : EReal))
      (fun a b => ((W a b : ℝ) : EReal))
      = fun a d => ((∑ k : Fin 1024, A a k * ∑ q : Fin 512, X k q * W q d : ℝ) : EReal) := by
    funext a d
    unfold enc feat
    simp only [← EReal.coe_mul, ← coe_sum]
  rw [hz]
  exact score_eq_of_real W2 w3 _ i j

end Cert.PairScore

end
-- ==== Proof.PayEnc.lean ====
/-
  The encoder kernel's matrix chain read at an index, on the extended reals: the two matrix products into a zero
  accumulator are plain sums over the contracted coordinate, and a change of float format is the identity, so the body's
  `z` is `A · (X · W)`; the stored `zw` scales column `d` by `w3 (128 + d)`, and the stored transpose swaps the coordinates.
-/
import proofs.«126771_j24885040513650_1_alg».proof.Proof.Gen.KernelIdeal.Skeleton
import proofs.«126771_j24885040513650_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Cert.PairScore Idealize.ShloMosaic Idealize.ShloMosaic.TcCoe Idealize.ShloMosaic.ValueIdx Idealize.SL.Sem

/-! The operand indices of the first product `X · W` at output index `j` and contraction index `q`: left `(j 0, q)`, right
    `(q, j 1)`, one axis at a time. -/

theorem lhsA_0 (j : S1024x128.Idx) (q : dot_S1024x512_S512x128_S1024x128_1_0_0_1_n_n.contr.Idx) :
    (dot_S1024x512_S512x128_S1024x128_1_0_0_1_n_n.lhsIdx j q 0).val = (j 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem lhsA_1 (j : S1024x128.Idx) (q : dot_S1024x512_S512x128_S1024x128_1_0_0_1_n_n.contr.Idx) :
    (dot_S1024x512_S512x128_S1024x128_1_0_0_1_n_n.lhsIdx j q 1).val = (q ⟨0, by decide⟩).val :=
  dot_S1024x512_S512x128_S1024x128_1_0_0_1_n_n.lhsIdx_val_of_single rfl j q
theorem rhsA_0 (j : S1024x128.Idx) (q : dot_S1024x512_S512x128_S1024x128_1_0_0_1_n_n.contr.Idx) :
    (dot_S1024x512_S512x128_S1024x128_1_0_0_1_n_n.rhsIdx j q 0).val = (q ⟨0, by decide⟩).val :=
  dot_S1024x512_S512x128_S1024x128_1_0_0_1_n_n.rhsIdx_val_of_single rfl j q
theorem rhsA_1 (j : S1024x128.Idx) (q : dot_S1024x512_S512x128_S1024x128_1_0_0_1_n_n.contr.Idx) :
    (dot_S1024x512_S512x128_S1024x128_1_0_0_1_n_n.rhsIdx j q 1).val = (j 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- A [1024,512] × [512,128] product into the zero accumulator, at (i, d): the sum over the contracted coordinate. -/
theorem matmulA_apply {φ₁ φ₂ : FTy} (lhs : FVec Ideal S1024x512 φ₁) (rhs : FVec Ideal S512x128 φ₂) (i : Fin 1024) (d : Fin 128) :
    matmul dot_S1024x512_S512x128_S1024x128_1_0_0_1_n_n none lhs rhs (constant S1024x128 .f32 0x00000000#32) (ix2 i d)
      = ∑ k : Fin 512, lhs (ix2 i k) * rhs (ix2 k d) := by
  refine (Ideal.matmul_constant_zero_apply dot_S1024x512_S512x128_S1024x128_1_0_0_1_n_n none lhs rhs (ix2 i d)).trans ?_
  rw [← Equiv.sum_comp (ValueIdx.contrEquiv1 dot_S1024x512_S512x128_S1024x128_1_0_0_1_n_n 512 rfl rfl).symm]
  refine Finset.sum_congr rfl fun k _ => ?_
  have hk := ValueIdx.contrEquiv1_symm_val dot_S1024x512_S512x128_S1024x128_1_0_0_1_n_n 512 rfl rfl k
  have el : dot_S1024x512_S512x128_S1024x128_1_0_0_1_n_n.lhsIdx (ix2 i d) ((ValueIdx.contrEquiv1 dot_S1024x512_S512x128_S1024x128_1_0_0_1_n_n 512 rfl rfl).symm k) = ix2 i k := funext fun a => Fin.ext (by
    match a with
    | ⟨0, _⟩ => exact lhsA_0 _ _
    | ⟨1, _⟩ => exact (lhsA_1 _ _).trans hk)
  have er : dot_S1024x512_S512x128_S1024x128_1_0_0_1_n_n.rhsIdx (ix2 i d) ((ValueIdx.contrEquiv1 dot_S1024x512_S512x128_S1024x128_1_0_0_1_n_n 512 rfl rfl).symm k) = ix2 k d := funext fun a => Fin.ext (by
    match a with
    | ⟨0, _⟩ => exact (rhsA_0 _ _).trans hk
    | ⟨1, _⟩ => exact rhsA_1 _ _)
  rw [el, er]

/-! The same for the second product `A · (X · W)`. -/

theorem lhsB_0 (j : S1024x128.Idx) (q : dot_S1024x1024_S1024x128_S1024x128_1_0_0_1_n_n.contr.Idx) :
    (dot_S1024x1024_S1024x128_S1024x128_1_0_0_1_n_n.lhsIdx j q 0).val = (j 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhsB_1 (j : S1024x128.Idx) (q : dot_S1024x1024_S1024x128_S1024x128_1_0_0_1_n_n.contr.Idx) :
    (dot_S1024x1024_S1024x128_S1024x128_1_0_0_1_n_n.lhsIdx j q 1).val = (q ⟨0, by decide⟩).val :=
  dot_S1024x1024_S1024x128_S1024x128_1_0_0_1_n_n.lhsIdx_val_of_single rfl j q
theorem rhsB_0 (j : S1024x128.Idx) (q : dot_S1024x1024_S1024x128_S1024x128_1_0_0_1_n_n.contr.Idx) :
    (dot_S1024x1024_S1024x128_S1024x128_1_0_0_1_n_n.rhsIdx j q 0).val = (q ⟨0, by decide⟩).val :=
  dot_S1024x1024_S1024x128_S1024x128_1_0_0_1_n_n.rhsIdx_val_of_single rfl j q
theorem rhsB_1 (j : S1024x128.Idx) (q : dot_S1024x1024_S1024x128_S1024x128_1_0_0_1_n_n.contr.Idx) :
    (dot_S1024x1024_S1024x128_S1024x128_1_0_0_1_n_n.rhsIdx j q 1).val = (j 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- A [1024,1024] × [1024,128] product into the zero accumulator, at (i, d): the sum over the contracted coordinate. -/
theorem matmulB_apply {φ₁ φ₂ : FTy} (lhs : FVec Ideal S1024x1024 φ₁) (rhs : FVec Ideal S1024x128 φ₂) (i : Fin 1024) (d : Fin 128) :
    matmul dot_S1024x1024_S1024x128_S1024x128_1_0_0_1_n_n none lhs rhs (constant S1024x128 .f32 0x00000000#32) (ix2 i d)
      = ∑ k : Fin 1024, lhs (ix2 i k) * rhs (ix2 k d) := by
  refine (Ideal.matmul_constant_zero_apply dot_S1024x1024_S1024x128_S1024x128_1_0_0_1_n_n none lhs rhs (ix2 i d)).trans ?_
  rw [← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 i d) ((ValueIdx.contrEquiv1 dot_S1024x1024_S1024x128_S1024x128_1_0_0_1_n_n 1024 rfl rfl).symm k) = ix2 i k := funext fun a => Fin.ext (by
    match a with
    | ⟨0, _⟩ => exact lhsB_0 _ _
    | ⟨1, _⟩ => exact (lhsB_1 _ _).trans hk)
  have er : dot_S1024x1024_S1024x128_S1024x128_1_0_0_1_n_n.rhsIdx (ix2 i d) ((ValueIdx.contrEquiv1 dot_S1024x1024_S1024x128_S1024x128_1_0_0_1_n_n 1024 rfl rfl).symm k) = ix2 k d := funext fun a => Fin.ext (by
    match a with
    | ⟨0, _⟩ => exact (rhsB_0 _ _).trans hk
    | ⟨1, _⟩ => exact rhsB_1 _ _)
  rw [el, er]

/-- `z = A · (X · W)` at (i, d). -/
theorem pay2_apply (x0 : Vec Ideal S1024x512 .f32) (x2 : Vec Ideal S512x128 .f32) (x1 : Vec Ideal S1024x1024 .f32)
    (i : Fin 1024) (d : Fin 128) :
    k0_pay2 (F := Ideal) x0 x2 x1 (ix2 i d) = enc (cur2 x0) (cur2 x1) (cur2 x2) i d := by
  unfold k0_pay2
  refine (matmulB_apply _ _ i d).trans ?_
  unfold enc feat
  refine Finset.sum_congr rfl fun k _ => ?_
  exact congrArg (x1 (ix2 i k) * ·) (matmulA_apply _ _ k d)

/-- `zw = z · w3[128:]` (the row broadcast of the second half of the column `w3`) at (i, d). -/
theorem pay7_apply (x0 : Vec Ideal S1024x512 .f32) (x2 : Vec Ideal S512x128 .f32) (x1 : Vec Ideal S1024x1024 .f32)
    (x4 : Vec Ideal S256x1 .f32) (i : Fin 1024) (d : Fin 128) :
    k0_pay7 (F := Ideal) x0 x2 x1 x4 (ix2 i d) = enc (cur2 x0) (cur2 x1) (cur2 x2) i d * col0 x4 (hi d) := by
  unfold k0_pay7
  refine (mulf_apply _ _ (ix2 i d)).trans ?_
  rw [pay2_apply, broadcastTo_1b_ab_apply]
  refine congrArg (enc (cur2 x0) (cur2 x1) (cur2 x2) i d * ·) ?_
  refine (shapeCast_apply _ shapeCasts_S128x1_S1x128 (ix2 (0 : Fin 1) d) (ix2 d (0 : Fin 1)) ?_).trans ?_
  · rw [Shape.rowMajor_val_two, Shape.rowMajor_val_two]
    show d.val * 1 + 0 = 0 * 128 + d.val
    omega
  · exact slice2_axis0_apply 128 x4 slices_S256x1_o128_0_S128x1 d 0 (hi d) rfl

/-- `zᵀ` at (d, j). -/
theorem pay8_apply (x0 : Vec Ideal S1024x512 .f32) (x2 : Vec Ideal S512x128 .f32) (x1 : Vec Ideal S1024x1024 .f32)
    (d : Fin 128) (j : Fin 1024) :
    k0_pay8 (F := Ideal) x0 x2 x1 (ix2 d j) = enc (cur2 x0) (cur2 x1) (cur2 x2) j d := by
  unfold k0_pay8
  refine (transpose_ix2_apply _ transposes_S1024x128_p1_0_S128x1024 d j).trans ?_
  exact pay2_apply x0 x2 x1 j d

end Cert.KernelIdeal.Pay

end
-- ==== Proof.PayHeads.lean ====
/-
  The encoder kernel's two score heads read at an index, on the extended reals. With `z` the body's matrix chain
  (`k0_pay2`), `relu z` goes through the first 128 rows of `W2` (head a) and through the last 128 rows (head b); each
  product is scaled column by column by the first half of `w3` and summed along the row. Head a is stored as a column
  [1024, 1], head b transposed as a row [1, 1024].
-/
import proofs.«126771_j24885040513650_1_alg».proof.Proof.Gen.KernelIdeal.Skeleton
import proofs.«126771_j24885040513650_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Cert.PairScore Idealize.ShloMosaic Idealize.ShloMosaic.TcCoe Idealize.ShloMosaic.ValueIdx Idealize.SL.Sem

/-! ## The [1024, 128] × [128, 128] product at an index -/

/-- The left operand's row is the output's row. -/
theorem dotL_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- The left operand's column is the contraction coordinate. -/
theorem dotL_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- The right operand's row is the contraction coordinate. -/
theorem dotR_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- The right operand's column is the output's column. -/
theorem dotR_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- Into the zero accumulator the product at `(i, l)` is `∑ k, A i k * B k l`. -/
theorem prod_apply (A : FVec Ideal S1024x128 .bf16) (B : FVec Ideal S128x128 .bf16) (i : Fin 1024) (l : Fin 128) :
    matmul dot_S1024x128_S128x128_S1024x128_1_0_0_1_n_n none A B (constant (F := Ideal) S1024x128 .f32 0x00000000#32) (ix2 i l)
      = ∑ k : Fin 128, A (ix2 i k) * B (ix2 k l) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 i l) ((contrEquiv1 dot_S1024x128_S128x128_S1024x128_1_0_0_1_n_n 128 rfl rfl).symm k) = ix2 i k := funext fun a => Fin.ext (by
    match a with
    | ⟨0, _⟩ => exact dotL_0 _ _
    | ⟨1, _⟩ => exact (dotL_1 _ _).trans hk)
  have er : dot_S1024x128_S128x128_S1024x128_1_0_0_1_n_n.rhsIdx (ix2 i l) ((contrEquiv1 dot_S1024x128_S128x128_S1024x128_1_0_0_1_n_n 128 rfl rfl).symm k) = ix2 k l := funext fun a => Fin.ext (by
    match a with
    | ⟨0, _⟩ => exact (dotR_0 _ _).trans hk
    | ⟨1, _⟩ => exact dotR_1 _ _)
  rw [el, er]

/-! ## The layout operations at an index -/

/-- A vector cast to a one-column matrix reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix cast to a one-row matrix reads, at `(u, i)`, the column at `(i, 0)`. -/
theorem shapeCast_a1_1a_apply {α : Type} {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- The sum along a row: at `i` it is `∑ l, src i l`. -/
theorem rowSum_apply (src : FVec Ideal S1024x128 .f32) (hφ : FKind.Formats .f32)
    (hacc : (0x00000000#32 : BitVec 32) = 0x00000000#32) (i : Fin 1024) :
    multiReduction (F := Ideal) .add [1] S1024 src 0x00000000#32 reduces_S1024x128_S1024 hφ hacc (ix1 i)
      = ∑ l : Fin 128, src (ix2 i l) := by
  refine (Ideal.multiReduction_add_single src 0x00000000#32 reduces_S1024x128_S1024 hφ hacc (ix1 i)).trans ?_
  refine Finset.sum_congr rfl fun l _ => congrArg src (funext fun a => Fin.ext ?_)
  match a with
  | ⟨0, _⟩ => rfl
  | ⟨1, _⟩ => rfl

/-- Head a at row `i`. -/
theorem pay5_apply (x0 : Vec Ideal S1024x512 .f32) (x2 : Vec Ideal S512x128 .f32) (x1 : Vec Ideal S1024x1024 .f32)
    (x3 : Vec Ideal S256x128 .f32) (x4 : Vec Ideal S256x1 .f32) (i : Fin 1024) :
    k0_pay5 (F := Ideal) x0 x2 x1 x3 x4 (ix2 i (0 : Fin 1))
      = headA (cur2 x3) (col0 x4) (cur2 (k0_pay2 (F := Ideal) x0 x2 x1)) i := by
  unfold k0_pay5 k0_pay3 k0_pay4
  generalize k0_pay2 (F := Ideal) x0 x2 x1 = Z
  refine (shapeCast_a_a1_apply _ _ i 0).trans ?_
  refine (rowSum_apply _ _ _ i).trans ?_
  unfold headA
  refine Finset.sum_congr rfl fun l _ => ?_
  rw [mulf_apply, prod_apply]
  refine congrArg₂ (· * ·) (Finset.sum_congr rfl fun k _ => congrArg₂ (· * ·) ?_ ?_) ?_
  · show max (Z (ix2 i k)) (Ideal.ofBits .f32 0x00000000#32) = max (Z (ix2 i k)) 0
    rw [Ideal.ofBits_zero_f32]
  · exact slice2_axis0_apply 0 x3 slices_S256x128_o0_0_S128x128 k l (lo k) (Nat.zero_add _).symm
  · refine (broadcastTo_1b_ab_apply _ _ i l).trans ?_
    refine (shapeCast_a1_1a_apply _ _ 0 l).trans ?_
    exact slice2_axis0_apply 0 x4 slices_S256x1_o0_0_S128x1 l 0 (lo l) (Nat.zero_add _).symm

/-- Head b, transposed, at column `j`. -/
theorem pay1_pay6_apply (x0 : Vec Ideal S1024x512 .f32) (x2 : Vec Ideal S512x128 .f32) (x1 : Vec Ideal S1024x1024 .f32)
    (x3 : Vec Ideal S256x128 .f32) (x4 : Vec Ideal S256x1 .f32) (j : Fin 1024) :
    k0_pay1 (F := Ideal) (k0_pay6 (F := Ideal) x0 x2 x1 x3 x4) (ix2 (0 : Fin 1) j)
      = headB (cur2 x3) (col0 x4) (cur2 (k0_pay2 (F := Ideal) x0 x2 x1)) j := by
  unfold k0_pay1 k0_pay6 k0_pay3 k0_pay4
  generalize k0_pay2 (F := Ideal) x0 x2 x1 = Z
  refine (transpose_ix2_apply _ _ 0 j).trans ?_
  refine (shapeCast_a_a1_apply _ _ j 0).trans ?_
  refine (rowSum_apply _ _ _ j).trans ?_
  unfold headB
  refine Finset.sum_congr rfl fun l _ => ?_
  rw [mulf_apply, prod_apply]
  refine congrArg₂ (· * ·) (Finset.sum_congr rfl fun k _ => congrArg₂ (· * ·) ?_ ?_) ?_
  · show max (Z (ix2 j k)) (Ideal.ofBits .f32 0x00000000#32) = max (Z (ix2 j k)) 0
    rw [Ideal.ofBits_zero_f32]
  · exact slice2_axis0_apply 128 x3 slices_S256x128_o128_0_S128x128 k l (hi k) rfl
  · refine (broadcastTo_1b_ab_apply _ _ j l).trans ?_
    refine (shapeCast_a1_1a_apply _ _ 0 l).trans ?_
    exact slice2_axis0_apply 0 x4 slices_S256x1_o0_0_S128x1 l 0 (lo l) (Nat.zero_add _).symm

end Cert.KernelIdeal.Pay

end
-- ==== Proof.KernelValue.lean ====
/-
  The kernel program's result array, on the extended reals, as one function of the argument arrays. The decoder region
  reads the four arrays the encoder region left; those are the encoder body's stored values of the arguments; read at an
  index they are `z · w3[128:]`, `zᵀ`, head a and head b of `z = A · (X · W)`; so entry (i, j) of the result is the logistic
  function of the kernel's form of the score.
-/
import proofs.«126771_j24885040513650_1_alg».proof.Proof.KernelRun
import proofs.«126771_j24885040513650_1_alg».proof.Proof.Region0
import proofs.«126771_j24885040513650_1_alg».proof.Proof.Region1
import proofs.«126771_j24885040513650_1_alg».proof.Proof.PayEnc
import proofs.«126771_j24885040513650_1_alg».proof.Proof.PayHeads
import proofs.«126771_j24885040513650_1_alg».proof.Proof.Spec

noncomputable section

namespace Cert.KernelIdeal.KValue

open Cert.KernelIdeal Cert.KernelIdeal.Gen Cert.KernelIdeal.Pay Cert.PairScore Idealize.ShloMosaic Idealize.ShloMosaic.TcCoe Idealize.ShloMosaic.ValueIdx Idealize.SL.Sem

variable (m : (ℓ : Loc nD τ sig) → Buf (Elt Ideal) ℓ) (ρ : Dev nD → PrngReg)

/-- The five float arguments as launched, each at its literal type. -/
abbrev argX (c : Dev nD) : Vec Ideal S1024x512 .f32 := m ((c.tc : Thread nD τ).loc main_arg0)
abbrev argA (c : Dev nD) : Vec Ideal S1024x1024 .f32 := m ((c.tc : Thread nD τ).loc main_arg1)
abbrev argW (c : Dev nD) : Vec Ideal S512x128 .f32 := m ((c.tc : Thread nD τ).loc main_arg2)
abbrev argW2 (c : Dev nD) : Vec Ideal S256x128 .f32 := m ((c.tc : Thread nD τ).loc main_arg3)
abbrev argW3 (c : Dev nD) : Vec Ideal S256x1 .f32 := m ((c.tc : Thread nD τ).loc main_arg4)

/-- The encoder's four result arrays, as the decoder region finds them, are the encoder body's values of the arguments. -/
theorem zw_eq (c : Dev nD) : Reg1.arrZw (V1 m ρ) c = k0_pay7 (F := Ideal) (argX m c) (argW m c) (argA m c) (argW3 m c) :=
  (hF0 m ρ c 5).symm.trans (Reg0.arr5 (V0 m ρ) c)
theorem zt_eq (c : Dev nD) : Reg1.arrZt (V1 m ρ) c = k0_pay8 (F := Ideal) (argX m c) (argW m c) (argA m c) :=
  (hF0 m ρ c 6).symm.trans (Reg0.arr6 (V0 m ρ) c)
theorem headA_eq (c : Dev nD) :
    Reg1.arrA (V1 m ρ) c = k0_pay5 (F := Ideal) (argX m c) (argW m c) (argA m c) (argW2 m c) (argW3 m c) :=
  (hF0 m ρ c 7).symm.trans (Reg0.arr7 (V0 m ρ) c)
theorem headB_eq (c : Dev nD) :
    Reg1.arrB (V1 m ρ) c = k0_pay1 (F := Ideal) (k0_pay6 (F := Ideal) (argX m c) (argW m c) (argA m c) (argW2 m c) (argW3 m c)) :=
  (hF0 m ρ c 8).symm.trans (Reg0.arr8 (V0 m ρ) c)

/-- The body's matrix chain is the encoder's `z`. -/
theorem z_eq (c : Dev nD) :
    cur2 (k0_pay2 (F := Ideal) (argX m c) (argW m c) (argA m c)) = enc (cur2 (argX m c)) (cur2 (argA m c)) (cur2 (argW m c)) :=
  funext fun i => funext fun d => pay2_apply (argX m c) (argW m c) (argA m c) i d

/-- Entry (i, j) of the result array: the logistic function of the kernel's form of the score. -/
theorem out_value (c : Dev nD) (i j : Fin 1024) :
    Reg1.arrOut (V1 m ρ) c (ix2 i j)
      = Ideal.logistic (kerScore (cur2 (argW2 m c)) (col0 (argW3 m c))
          (enc (cur2 (argX m c)) (cur2 (argA m c)) (cur2 (argW m c))) i j) := by
  rw [Reg1.out_apply, zw_eq, zt_eq, headA_eq, headB_eq, pay5_apply, pay1_pay6_apply, z_eq]
  simp only [pay7_apply, pay8_apply]
  rfl

end Cert.KernelIdeal.KValue

end
-- ==== Proof.RefValue.lean ====
/-
  The reference read at an index, on the extended reals: its two matrix products are the encoder's `z`; the two broadcasts
  and the concatenation form `[z i ; z j]` for every pair; the clamp, the product with `W2`, the coordinatewise products,
  the second concatenation and the product with the column `w3` are the reference's score; and
  `1 / (1 + exp (- score))` is the logistic function.
-/
import proofs.«126771_j24885040513650_1_alg».proof.Proof.Gen.ReferenceIdeal.Read
import proofs.«126771_j24885040513650_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Cert.PairScore Idealize.ShloMosaic Idealize.ShloMosaic.TcCoe Idealize.ShloMosaic.ValueIdx Idealize.SL.Sem

section
variable (x0 : (⟨S1024x512, .f32⟩ : BufTy).Contents (Elt Ideal)) (x1 : (⟨S1024x1024, .f32⟩ : BufTy).Contents (Elt Ideal))
  (x2 : (⟨S512x128, .f32⟩ : BufTy).Contents (Elt Ideal)) (x3 : (⟨S256x128, .f32⟩ : BufTy).Contents (Elt Ideal))
  (x4 : (⟨S256x1, .f32⟩ : BufTy).Contents (Elt Ideal))

/-- The first product at (k, d) is the projected feature `(X · W) k d`. -/
theorem v0_at (k : Fin 1024) (d : Fin 128) :
    val_main_v0 (F := Ideal) x0 x2 (ix2 k d) = feat (cur2 x0) (cur2 x2) k d := by
  rw [val_main_v0_apply]
  unfold feat
  refine Finset.sum_congr rfl fun q _ => ?_
  have el : lidx_main_v0 (ix2 k d) q = ix2 k q :=
    funext fun a => by match a with | ⟨0, _⟩ => rfl | ⟨1, _⟩ => rfl
  have er : ridx_main_v0 (ix2 k d) q = ix2 q d :=
    funext fun a => by match a with | ⟨0, _⟩ => rfl | ⟨1, _⟩ => rfl
  rw [el, er]

/-- The second product at (i, d) is the encoder's `z i d`. -/
theorem v1_at (i : Fin 1024) (d : Fin 128) :
    val_main_v1 (F := Ideal) x0 x1 x2 (ix2 i d) = enc (cur2 x0) (cur2 x1) (cur2 x2) i d := by
  rw [val_main_v1_apply]
  unfold enc
  refine Finset.sum_congr rfl fun k _ => ?_
  have el : lidx_main_v1 (ix2 i d) k = ix2 i k :=
    funext fun a => by match a with | ⟨0, _⟩ => rfl | ⟨1, _⟩ => rfl
  have er : ridx_main_v1 (ix2 i d) k = ix2 k d :=
    funext fun a => by match a with | ⟨0, _⟩ => rfl | ⟨1, _⟩ => rfl
  rw [el, er, v0_at]

/-- The broadcast along the second axis reads `z` at the first node. -/
theorem v3_at (i j : Fin 1024) (q : Fin 128) :
    val_main_v3 (F := Ideal) x0 x1 x2 (ix3 i j q) = val_main_v1 (F := Ideal) x0 x1 x2 (ix2 i q) := by
  rw [val_main_v3_apply, val_main_v2_apply]
  congr 1
  exact funext fun a => by match a with | ⟨0, _⟩ => rfl | ⟨1, _⟩ => rfl

/-- The broadcast along the first axis reads `z` at the second node. -/
theorem v5_at (i j : Fin 1024) (q : Fin 128) :
    val_main_v5 (F := Ideal) x0 x1 x2 (ix3 i j q) = val_main_v1 (F := Ideal) x0 x1 x2 (ix2 j q) := by
  rw [val_main_v5_apply, val_main_v4_apply]
  congr 1
  exact funext fun a => by match a with | ⟨0, _⟩ => rfl | ⟨1, _⟩ => rfl

/-- The first concatenation below coordinate 128 is its first piece. -/
theorem v6_lo (i j : Fin 1024) (q : Fin 256) (h : q.val < 128) :
    val_main_v6 (F := Ideal) x0 x1 x2 (ix3 i j q) = val_main_v3 (F := Ideal) x0 x1 x2 (ix3 i j (⟨q.val, h⟩ : Fin 128)) := by
  unfold val_main_v6
  exact concatenate_pair_apply_left (t := S1024x1024x256) (s₁ := S1024x1024x128) (s₂ := S1024x1024x128) (2 : Fin 3) _ _ _ _ rfl _ (fun b => by
    match b with
    | ⟨0, _⟩ => rfl
    | ⟨1, _⟩ => rfl
    | ⟨2, _⟩ => rfl)

/-- The first concatenation from coordinate 128 on is its second piece, 128 less. -/
theorem v6_hi (i j : Fin 1024) (q : Fin 256) (h : 128 ≤ q.val) :
    val_main_v6 (F := Ideal) x0 x1 x2 (ix3 i j q)
      = val_main_v5 (F := Ideal) x0 x1 x2 (ix3 i j (⟨q.val - 128, by have := q.isLt; omega⟩ : Fin 128)) := by
  unfold val_main_v6
  exact concatenate_pair_apply_right (t := S1024x1024x256) (s₁ := S1024x1024x128) (s₂ := S1024x1024x128) (2 : Fin 3) _ _ _ _ rfl rfl _
    (fun b hb => by
      match b with
      | ⟨0, _⟩ => rfl
      | ⟨1, _⟩ => rfl
      | ⟨2, _⟩ => exact absurd rfl hb)
    (by show q.val - 128 + 128 = q.val; omega)

/-- The first concatenation is `[z i ; z j]`. -/
theorem v6_at (i j : Fin 1024) (q : Fin 256) :
    val_main_v6 (F := Ideal) x0 x1 x2 (ix3 i j q) = pairFeat (enc (cur2 x0) (cur2 x1) (cur2 x2)) i j q := by
  unfold pairFeat
  split
  · next h => rw [v6_lo x0 x1 x2 i j q h, v3_at, v1_at]
  · next h => rw [v6_hi x0 x1 x2 i j q (by omega), v5_at, v1_at]

/-- The clamp below at 0. -/
theorem v7_at (i j : Fin 1024) (q : Fin 256) :
    val_main_v7 (F := Ideal) x0 x1 x2 (ix3 i j q) = max (pairFeat (enc (cur2 x0) (cur2 x1) (cur2 x2)) i j q) 0 := by
  rw [val_main_v7_apply, val_main_call0_v0_apply, val_main_call0_cst_apply, v6_at]
  show max _ (Ideal.ofBits .f32 0x00000000#32) = _
  rw [Ideal.ofBits_zero_f32]

/-- The hidden layer: the clamped pair against `W2`. -/
theorem v8_at (i j : Fin 1024) (k : Fin 128) :
    val_main_v8 (F := Ideal) x0 x1 x2 x3 (ix3 i j k)
      = ∑ q : Fin 256, max (pairFeat (enc (cur2 x0) (cur2 x1) (cur2 x2)) i j q) 0 * cur2 x3 q k := by
  rw [val_main_v8_apply]
  refine Finset.sum_congr rfl fun q _ => ?_
  have el : lidx_main_v8 (ix3 i j k) q = ix3 i j q :=
    funext fun a => by match a with | ⟨0, _⟩ => rfl | ⟨1, _⟩ => rfl | ⟨2, _⟩ => rfl
  have er : ridx_main_v8 (ix3 i j k) q = ix2 q k :=
    funext fun a => by match a with | ⟨0, _⟩ => rfl | ⟨1, _⟩ => rfl
  rw [el, er, v7_at]

/-- The coordinatewise products `z i k · z j k`. -/
theorem v9_at (i j : Fin 1024) (k : Fin 128) :
    val_main_v9 (F := Ideal) x0 x1 x2 (ix3 i j k)
      = enc (cur2 x0) (cur2 x1) (cur2 x2) i k * enc (cur2 x0) (cur2 x1) (cur2 x2) j k := by
  rw [val_main_v9_apply, v3_at, v5_at, v1_at, v1_at]
  rfl

/-- The second concatenation below coordinate 128 is the hidden layer. -/
theorem v10_lo (i j : Fin 1024) (k : Fin 256) (h : k.val < 128) :
    val_main_v10 (F := Ideal) x0 x1 x2 x3 (ix3 i j k) = val_main_v8 (F := Ideal) x0 x1 x2 x3 (ix3 i j (⟨k.val, h⟩ : Fin 128)) := by
  unfold val_main_v10
  exact concatenate_pair_apply_left (t := S1024x1024x256) (s₁ := S1024x1024x128) (s₂ := S1024x1024x128) (2 : Fin 3) _ _ _ _ rfl _ (fun b => by
    match b with
    | ⟨0, _⟩ => rfl
    | ⟨1, _⟩ => rfl
    | ⟨2, _⟩ => rfl)

/-- The second concatenation from coordinate 128 on is the coordinatewise products, 128 less. -/
theorem v10_hi (i j : Fin 1024) (k : Fin 256) (h : 128 ≤ k.val) :
    val_main_v10 (F := Ideal) x0 x1 x2 x3 (ix3 i j k)
      = val_main_v9 (F := Ideal) x0 x1 x2 (ix3 i j (⟨k.val - 128, by have := k.isLt; omega⟩ : Fin 128)) := by
  unfold val_main_v10
  exact concatenate_pair_apply_right (t := S1024x1024x256) (s₁ := S1024x1024x128) (s₂ := S1024x1024x128) (2 : Fin 3) _ _ _ _ rfl rfl _
    (fun b hb => by
      match b with
      | ⟨0, _⟩ => rfl
      | ⟨1, _⟩ => rfl
      | ⟨2, _⟩ => exact absurd rfl hb)
    (by show k.val - 128 + 128 = k.val; omega)

/-- The second concatenation is the 256 numbers the last inner product sees. -/
theorem v10_at (i j : Fin 1024) (k : Fin 256) :
    val_main_v10 (F := Ideal) x0 x1 x2 x3 (ix3 i j k)
      = pairHidden (cur2 x3) (enc (cur2 x0) (cur2 x1) (cur2 x2)) i j k := by
  unfold pairHidden
  split
  · next h => rw [v10_lo x0 x1 x2 x3 i j k h, v8_at]
  · next h => rw [v10_hi x0 x1 x2 x3 i j k (by omega), v9_at]

/-- The inner product with the column `w3` is the reference's score. -/
theorem v11_at (i j : Fin 1024) :
    val_main_v11 (F := Ideal) x0 x1 x2 x3 x4 (ix3 i j (0 : Fin 1))
      = refScore (cur2 x3) (col0 x4) (enc (cur2 x0) (cur2 x1) (cur2 x2)) i j := by
  rw [val_main_v11_apply]
  unfold refScore
  refine Finset.sum_congr rfl fun k _ => ?_
  have el : lidx_main_v11 (ix3 i j (0 : Fin 1)) k = ix3 i j k :=
    funext fun a => by match a with | ⟨0, _⟩ => rfl | ⟨1, _⟩ => rfl | ⟨2, _⟩ => rfl
  have er : ridx_main_v11 (ix3 i j (0 : Fin 1)) k = ix2 k (0 : Fin 1) :=
    funext fun a => by match a with | ⟨0, _⟩ => rfl | ⟨1, _⟩ => rfl
  rw [el, er, v10_at]

/-- The bit pattern `0x3F800000` is the number 1. -/
theorem one_f32 : Ideal.ofBits .f32 0x3F800000#32 = 1 := by
  simp [Ideal.ofBits, Ideal.ieee, -EReal.coe_mul]; norm_num

end

/-- The reference's result at (i, j). -/
theorem ref_apply (x0 : (⟨S1024x512, .f32⟩ : BufTy).Contents (Elt Ideal)) (x1 : (⟨S1024x1024, .f32⟩ : BufTy).Contents (Elt Ideal))
    (x2 : (⟨S512x128, .f32⟩ : BufTy).Contents (Elt Ideal)) (x3 : (⟨S256x128, .f32⟩ : BufTy).Contents (Elt Ideal))
    (x4 : (⟨S256x1, .f32⟩ : BufTy).Contents (Elt Ideal)) (i j : Fin 1024) :
    val_main_v18 (F := Ideal) x0 x1 x2 x3 x4 (ix2 i j)
      = Ideal.logistic (refScore (cur2 x3) (col0 x4) (enc (cur2 x0) (cur2 x1) (cur2 x2)) i j) := by
  rw [val_main_v18_apply, val_main_v17_apply, val_main_cst_0_apply, val_main_v16_apply, val_main_v15_apply,
    val_main_cst_apply, val_main_v14_apply, val_main_v13_apply, val_main_v12_apply]
  have e12 : idx_main_v12 (ix2 i j) = ix3 i j (0 : Fin 1) :=
    funext fun a => Fin.ext (by
      have hi := i.isLt
      have hj := j.isLt
      match a with
      | ⟨0, _⟩ => show (i.val * 1024 + j.val) / 1024 = i.val; omega
      | ⟨1, _⟩ => show (i.val * 1024 + j.val) / 1 % 1024 = j.val; omega
      | ⟨2, _⟩ => rfl)
  rw [e12, v11_at]
  show Ideal.div (Ideal.ofBits .f32 0x3F800000#32) (Ideal.ofBits .f32 0x3F800000#32 + Ideal.exp (-_)) = _
  rw [one_f32]
  rfl

end Cert.ReferenceIdeal.RefValue

end
-- ==== Proof.Finite.lean ====
/-
  The precondition read entry by entry: each of the five float arguments passes `|x| < +∞` at every index, and an
  extended real of finite absolute value is a real number.
-/
import proofs.«126771_j24885040513650_1_alg».proof.Defs
import proofs.«126771_j24885040513650_1_alg».proof.Proof.Gen.Pre_finite_inputs
import proofs.«126771_j24885040513650_1_alg».proof.Proof.Gen.KernelIdeal
import Idealize.ShloMosaic.Lib.ReduceAll
import Idealize.ShloMosaic.Lib.ValueIdx

noncomputable section

namespace Cert.KernelIdeal.Finite

open Cert.KernelIdeal Idealize.ShloMosaic Idealize.ShloMosaic.TcCoe Idealize.ShloMosaic.ValueIdx Idealize.SL.Sem

/-- The rank-0 shape has one index. -/
instance : Subsingleton Cert.Pre_finite_inputs.S_.Idx := ⟨fun a b => funext fun d => d.elim0⟩

/-- The f32 pattern 0x7F800000 (sign 0, exponent all ones, fraction 0) denotes +∞. -/
theorem top_bits : Ideal.ofBits .f32 0x7F800000#32 = (⊤ : EReal) := by simp [Ideal.ofBits, Ideal.ieee]

/-- An extended real a with |a| = max a (-a) below +∞ is neither +∞ nor -∞: it is a real number. -/
theorem real_of_abs_lt_top (a : EReal) (h : max a (-a) < ⊤) : ∃ r : ℝ, a = (r : EReal) := by
  induction a using EReal.rec with
  | bot => simp at h
  | coe r => exact ⟨r, rfl⟩
  | top => simp at h

/-- For an array x of any shape: if the conjunction over all indices of `|x y| < +∞` (the and-reduction, over every
    axis, of the comparison of |x| with the broadcast constant +∞) is 1, then every entry x y is a real number. -/
theorem real_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
          (cmpf .olt (Host.absf x)
            (broadcastInDim S ![] hb (constant (F := Ideal) Cert.Pre_finite_inputs.S_ .f32 0x7F800000#32)))
          init hr hu ix0 = 1#1) :
    ∀ y, ∃ r : ℝ, x y = (r : EReal) := by
  intro y
  -- the reduction is 1, so the comparison is 1 at y
  have h1 := Host.reduce_andi_all _ _ hr hu ix0 e y
  -- at y the comparison is  max (x y) (-(x y)) < (the value of the constant)
  have h2 : Ideal.cmp .olt (max (x y) (-(x y))) (Ideal.ofBits .f32 0x7F800000#32) = 1#1 := h1
  rw [top_bits] at h2
  simp only [Ideal.cmp] at h2
  have h3 : max (x y) (-(x y)) < ⊤ := by
    by_contra hn
    simp [hn] at h2
  exact real_of_abs_lt_top _ h3

/-- Under the precondition every entry of every float argument is a real number. -/
theorem real_of_pre (m : (ℓ : Loc nD τ sig) → Buf (Elt Ideal) ℓ) (h : Cert.Pre_KernelIdeal m) (c : Dev nD) :
    (∀ y, ∃ r : ℝ, (m ((c.tc : Thread nD τ).loc main_arg0) : Vec Ideal S1024x512 .f32) y = (r : EReal))
    ∧ (∀ y, ∃ r : ℝ, (m ((c.tc : Thread nD τ).loc main_arg1) : Vec Ideal S1024x1024 .f32) y = (r : EReal))
    ∧ (∀ y, ∃ r : ℝ, (m ((c.tc : Thread nD τ).loc main_arg2) : Vec Ideal S512x128 .f32) y = (r : EReal))
    ∧ (∀ y, ∃ r : ℝ, (m ((c.tc : Thread nD τ).loc main_arg3) : Vec Ideal S256x128 .f32) y = (r : EReal))
    ∧ (∀ y, ∃ r : ℝ, (m ((c.tc : Thread nD τ).loc main_arg4) : Vec Ideal S256x1 .f32) y = (r : EReal)) := by
  -- the predicate's one value, at the one index of the rank-0 result, is 1
  have h0 := congrFun (h c) ValueIdx.ix0
  unfold Cert.Pre_finite_inputs.fn Cert.Pre_finite_inputs.fn_part1 at h0
  -- it is the conjunction ((((all0 ∧ all1) ∧ all2) ∧ all3) ∧ all4) of the five all-reductions: each is 1
  simp only [andi, IntOp.andi_eq_one] at h0
  obtain ⟨⟨⟨⟨e0, e1⟩, e2⟩, e3⟩, e4⟩ := h0
  exact ⟨real_of_all _ _ _ _ _ e0, real_of_all _ _ _ _ _ e1, real_of_all _ _ _ _ _ e2, real_of_all _ _ _ _ _ e3,
    real_of_all _ _ _ _ _ e4⟩

end Cert.KernelIdeal.Finite

end
-- ==== Proof.lean ====
/-
  The certificate of the pair scorer: a two-region kernel program (an encoder that forms `z = A · (X · W)` and four small
  arrays derived from it, then a row-tiled decoder) against the all-pairs reference that builds the concatenated pair
  features explicitly.

  The three frames: both kernel programs run to the end with their arguments unchanged (the generated frames); the
  reference is a straight line of host operations (its generated run). The idealization rewrote nothing. For the value
  claim, the kernel program's result at (i, j) is the logistic function of `(∑ k, (z i k · w3 (128 + k)) · z j k + a i) + b j`
  and the reference's is the logistic function of `∑ k < 256, hidden i j k · w3 k`; under the precondition every argument
  entry is a real number, and on real data the two scores are one number (the clamp acts coordinatewise, so the product
  with `W2` and `w3` splits over the two halves of the concatenation, and a factor distributes over a finite sum).
-/
import proofs.«126771_j24885040513650_1_alg».proof.Defs
import proofs.«126771_j24885040513650_1_alg».proof.Proof.Gen.Kernel
import proofs.«126771_j24885040513650_1_alg».proof.Proof.Gen.Kernel.Skeleton
import proofs.«126771_j24885040513650_1_alg».proof.Proof.Gen.Kernel.Launch
import proofs.«126771_j24885040513650_1_alg».proof.Proof.Gen.Kernel.Points
import proofs.«126771_j24885040513650_1_alg».proof.Proof.Gen.Kernel.Frame
import proofs.«126771_j24885040513650_1_alg».proof.Proof.Gen.KernelIdeal
import proofs.«126771_j24885040513650_1_alg».proof.Proof.Gen.KernelIdeal.Skeleton
import proofs.«126771_j24885040513650_1_alg».proof.Proof.Gen.KernelIdeal.Launch
import proofs.«126771_j24885040513650_1_alg».proof.Proof.Gen.KernelIdeal.Points
import proofs.«126771_j24885040513650_1_alg».proof.Proof.Gen.KernelIdeal.Frame
import proofs.«126771_j24885040513650_1_alg».proof.Proof.Gen.ReferenceIdeal
import proofs.«126771_j24885040513650_1_alg».proof.Proof.Gen.Pre_finite_inputs
import proofs.«126771_j24885040513650_1_alg».proof.Proof.Gen.ReferenceIdeal.Run
import proofs.«126771_j24885040513650_1_alg».proof.Proof.Gen.ReferenceIdeal.Read
import proofs.«126771_j24885040513650_1_alg».proof.Proof.KernelRun
import proofs.«126771_j24885040513650_1_alg».proof.Proof.KernelValue
import proofs.«126771_j24885040513650_1_alg».proof.Proof.RefValue
import proofs.«126771_j24885040513650_1_alg».proof.Proof.Finite
import proofs.«126771_j24885040513650_1_alg».proof.Proof.Spec
import Idealize.ShloMosaic.Adequacy
import Idealize.ShloMosaic.Init

noncomputable section

namespace Cert.Proof

open Idealize.ShloMosaic Idealize.ShloMosaic.TcCoe Idealize.ShloMosaic.ValueIdx Idealize.SL.Sem Cert.PairScore

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- An array of real numbers, read through its two coordinates, is the coercion of a real matrix. -/
theorem cur2_real {n0 n1 : Nat} (v : (⟨2, ![n0, n1]⟩ : Shape).Idx → EReal) (h : ∀ y, ∃ r : ℝ, v y = (r : EReal)) :
    ∃ M : Fin n0 → Fin n1 → ℝ, cur2 v = fun a b => ((M a b : ℝ) : EReal) := by
  choose f hf using h
  exact ⟨fun a b => f (ix2 a b), funext fun a => funext fun b => hf (ix2 a b)⟩

/-- A one-column array of real numbers is the coercion of a real vector. -/
theorem col0_real {n : Nat} (v : (⟨2, ![n, 1]⟩ : Shape).Idx → EReal) (h : ∀ y, ∃ r : ℝ, v y = (r : EReal)) :
    ∃ u : Fin n → ℝ, col0 v = fun a => ((u a : ℝ) : EReal) := by
  choose f hf using h
  exact ⟨fun a => f (ix2 a (0 : Fin 1)), funext fun a => hf (ix2 a (0 : Fin 1))⟩

/-- Both idealized programs end with the same result array: entry (i, j) is the logistic function of one score. -/
theorem algebraic : Cert.algebraic_KernelIdeal_ReferenceIdeal := by
  intro m ρ m' ρ' hpre hagree
  refine ⟨fun c => Cert.KernelIdeal.Reg1.arrOut (Cert.KernelIdeal.Gen.V1 m ρ) c, ?_, ?_⟩
  · exact (θ_run Cert.KernelIdeal.defs _ _).mono
      (fun r h c => ⟨(h c).1.trans (Cert.KernelIdeal.Gen.W2_arr m ρ c 4), (h c).2⟩)
      (Cert.KernelIdeal.Gen.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v18_eq, (hagree c).1, (hagree c).2.1, (hagree c).2.2.1, (hagree c).2.2.2.1,
      (hagree c).2.2.2.2.1]
    funext y
    obtain ⟨i, j, rfl⟩ : ∃ (i : Fin 1024) (j : Fin 1024), y = ix2 i j := ⟨y 0, y 1, eq_ix2 y⟩
    refine (Cert.ReferenceIdeal.RefValue.ref_apply _ _ _ _ _ i j).trans ?_
    refine Eq.trans ?_ (Cert.KernelIdeal.KValue.out_value m ρ c i j).symm
    refine congrArg Ideal.logistic ?_
    obtain ⟨h0, h1, h2, h3, h4⟩ := Cert.KernelIdeal.Finite.real_of_pre m hpre c
    obtain ⟨X, hX⟩ := cur2_real (Cert.KernelIdeal.KValue.argX m c) h0
    obtain ⟨A, hA⟩ := cur2_real (Cert.KernelIdeal.KValue.argA m c) h1
    obtain ⟨W, hW⟩ := cur2_real (Cert.KernelIdeal.KValue.argW m c) h2
    obtain ⟨W2, hW2⟩ := cur2_real (Cert.KernelIdeal.KValue.argW2 m c) h3
    obtain ⟨w3, hw3⟩ := col0_real (Cert.KernelIdeal.KValue.argW3 m c) h4
    show refScore (cur2 (Cert.KernelIdeal.KValue.argW2 m c)) (col0 (Cert.KernelIdeal.KValue.argW3 m c))
        (enc (cur2 (Cert.KernelIdeal.KValue.argX m c)) (cur2 (Cert.KernelIdeal.KValue.argA m c)) (cur2 (Cert.KernelIdeal.KValue.argW m c))) i j = _
    rw [hX, hA, hW, hW2, hw3]
    exact score_eq X A W W2 w3 i j

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
